-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x64x128x128 : Shape := ⟨5, ![4, 8, 64, 128, 128]⟩
abbrev S_ : Shape := ⟨0, ![]⟩

class Facts : Prop where
  bcast_S_S4x8x64x128x128 : S_.BroadcastsInDim S4x8x64x128x128 (![] : Fin 0 → Fin S4x8x64x128x128.rank)
  reducesTo_S4x8x64x128x128_S_d0_1_2_3_4 : S4x8x64x128x128.ReducesTo [0, 1, 2, 3, 4] S_
  h_S_ : 0 < S_.numel

variable [Facts]

def fn {F : FTy → Type} [FloatOps F] (main_arg0 : FVec F S4x8x64x128x128 .f32) : IVec S_ 1 :=
  let main_v0 : FVec F S4x8x64x128x128 .f32 := Host.absf main_arg0
  let main_cst : FVec F S_ .f32 := constant S_ .f32 0x7F800000#32
  let main_v1 : FVec F S4x8x64x128x128 .f32 := broadcastInDim S4x8x64x128x128 ![] bcast_S_S4x8x64x128x128 main_cst
  let main_v2 : IVec S4x8x64x128x128 1 := cmpf .olt main_v0 main_v1
  let main_c : IVec S_ 1 := constantI S_ 1 1#1
  let main_v3 : IVec S_ 1 := (fun x v => Host.reduce IntOp.andi x v reducesTo_S4x8x64x128x128_S_d0_1_2_3_4 h_S_) main_v2 main_c
  main_v3
-- ==== Kernel.lean ====
abbrev S4x8x64x128x128 : Shape := ⟨5, ![4, 8, 64, 128, 128]⟩
abbrev S4x1x128x256x128 : Shape := ⟨5, ![4, 1, 128, 256, 128]⟩
abbrev S1x8x8x128x128 : Shape := ⟨5, ![1, 8, 8, 128, 128]⟩
abbrev S1x1x16x256x128 : Shape := ⟨5, ![1, 1, 16, 256, 128]⟩
abbrev S1x1x8x128x128 : Shape := ⟨5, ![1, 1, 8, 128, 128]⟩
abbrev S8x128x128 : Shape := ⟨3, ![8, 128, 128]⟩
abbrev S8x1x128x128 : Shape := ⟨4, ![8, 1, 128, 128]⟩
abbrev S8x2x128x128 : Shape := ⟨4, ![8, 2, 128, 128]⟩
abbrev S16x128x128 : Shape := ⟨3, ![16, 128, 128]⟩
abbrev S16x128x1x128 : Shape := ⟨4, ![16, 128, 1, 128]⟩
abbrev S16x128x2x128 : Shape := ⟨4, ![16, 128, 2, 128]⟩
abbrev S16x256x128 : Shape := ⟨3, ![16, 256, 128]⟩
abbrev S_ : Shape := ⟨0, ![]⟩
abbrev S4x1x128x256x128x1 : Shape := ⟨6, ![4, 1, 128, 256, 128, 1]⟩
abbrev S4x1x128x256x128x2 : Shape := ⟨6, ![4, 1, 128, 256, 128, 2]⟩
abbrev S4x1x128x256x256 : Shape := ⟨5, ![4, 1, 128, 256, 256]⟩

abbrev nBuf : Space → Nat
  | .hbm => 15
  | .vmem => 6
  | .smem => 0
  | _ => 0

abbrev bufTy : (tb : Table) → Fin (tcTables nBuf tb) → BufTy
  | .hbm, ⟨0, _⟩ => ⟨S4x8x64x128x128, .f32⟩
  | .hbm, ⟨1, _⟩ => ⟨S4x1x128x256x128, .f32⟩
  | .hbm, ⟨2, _⟩ => ⟨S4x1x128x256x128, .f32⟩
  | .hbm, ⟨3, _⟩ => ⟨S4x1x128x256x128, .f32⟩
  | .hbm, ⟨4, _⟩ => ⟨S_, .f32⟩
  | .hbm, ⟨5, _⟩ => ⟨S4x1x128x256x128, .f32⟩
  | .hbm, ⟨6, _⟩ => ⟨S4x1x128x256x128, .f32⟩
  | .hbm, ⟨7, _⟩ => ⟨S4x1x128x256x128, .f32⟩
  | .hbm, ⟨8, _⟩ => ⟨S_, .f32⟩
  | .hbm, ⟨9, _⟩ => ⟨S4x1x128x256x128, .f32⟩
  | .hbm, ⟨10, _⟩ => ⟨S4x1x128x256x128, .f32⟩
  | .hbm, ⟨11, _⟩ => ⟨S4x1x128x256x128x1, .f32⟩
  | .hbm, ⟨12, _⟩ => ⟨S4x1x128x256x128x1, .f32⟩
  | .hbm, ⟨13, _⟩ => ⟨S4x1x128x256x128x2, .f32⟩
  | .hbm, ⟨14, _⟩ => ⟨S4x1x128x256x256, .f32⟩
  | .local _ .vmem, ⟨0, _⟩ => ⟨S1x8x8x128x128, .f32⟩
  | .local _ .vmem, ⟨1, _⟩ => ⟨S1x8x8x128x128, .f32⟩
  | .local _ .vmem, ⟨2, _⟩ => ⟨S1x1x16x256x128, .f32⟩
  | .local _ .vmem, ⟨3, _⟩ => ⟨S1x1x16x256x128, .f32⟩
  | .local _ .vmem, ⟨4, _⟩ => ⟨S1x1x16x256x128, .f32⟩
  | .local _ .vmem, ⟨5, _⟩ => ⟨S1x1x16x256x128, .f32⟩
  | _, _ => ⟨S4x8x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x8x8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x16x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x8x8x128x128_S1x1x8x128x128_0_0_0_0_0 : ∀ a, (![0, 0, 0, 0, 0] : Fin 5 → Nat) a + S1x1x8x128x128.size a ≤ S1x8x8x128x128.size a
  h_S1x1x8x128x128 : 0 < S1x1x8x128x128.numel
  shapeCasts_S1x1x8x128x128_S8x128x128 : S1x1x8x128x128.ShapeCasts S8x128x128
  inb_S1x8x8x128x128_S1x1x8x128x128_0_1_0_0_0 : ∀ a, (![0, 1, 0, 0, 0] : Fin 5 → Nat) a + S1x1x8x128x128.size a ≤ S1x8x8x128x128.size a
  inb_S1x8x8x128x128_S1x1x8x128x128_0_2_0_0_0 : ∀ a, (![0, 2, 0, 0, 0] : Fin 5 → Nat) a + S1x1x8x128x128.size a ≤ S1x8x8x128x128.size a
  inb_S1x8x8x128x128_S1x1x8x128x128_0_3_0_0_0 : ∀ a, (![0, 3, 0, 0, 0] : Fin 5 → Nat) a + S1x1x8x128x128.size a ≤ S1x8x8x128x128.size a
  inb_S1x8x8x128x128_S1x1x8x128x128_0_4_0_0_0 : ∀ a, (![0, 4, 0, 0, 0] : Fin 5 → Nat) a + S1x1x8x128x128.size a ≤ S1x8x8x128x128.size a
  inb_S1x8x8x128x128_S1x1x8x128x128_0_5_0_0_0 : ∀ a, (![0, 5, 0, 0, 0] : Fin 5 → Nat) a + S1x1x8x128x128.size a ≤ S1x8x8x128x128.size a
  inb_S1x8x8x128x128_S1x1x8x128x128_0_6_0_0_0 : ∀ a, (![0, 6, 0, 0, 0] : Fin 5 → Nat) a + S1x1x8x128x128.size a ≤ S1x8x8x128x128.size a
  inb_S1x8x8x128x128_S1x1x8x128x128_0_7_0_0_0 : ∀ a, (![0, 7, 0, 0, 0] : Fin 5 → Nat) a + S1x1x8x128x128.size a ≤ S1x8x8x128x128.size a
  shapeCasts_S8x128x128_S8x1x128x128 : S8x128x128.ShapeCasts S8x1x128x128
  concatenates_S8x1x128x128_S8x1x128x128_S8x2x128x128_d1 : Shape.Concatenates [S8x1x128x128, S8x1x128x128] S8x2x128x128 1
  shapeCasts_S8x2x128x128_S16x128x128 : S8x2x128x128.ShapeCasts S16x128x128
  shapeCasts_S16x128x128_S16x128x1x128 : S16x128x128.ShapeCasts S16x128x1x128
  concatenates_S16x128x1x128_S16x128x1x128_S16x128x2x128_d2 : Shape.Concatenates [S16x128x1x128, S16x128x1x128] S16x128x2x128 2
  shapeCasts_S16x128x2x128_S16x256x128 : S16x128x2x128.ShapeCasts S16x256x128
  inb_S1x1x16x256x128_S1x1x16x256x128_0_0_0_0_0 : ∀ a, (![0, 0, 0, 0, 0] : Fin 5 → Nat) a + S1x1x16x256x128.size a ≤ S1x1x16x256x128.size a
  h_S1x1x16x256x128 : 0 < S1x1x16x256x128.numel
  shapeCasts_S1x1x16x256x128_S16x256x128 : S1x1x16x256x128.ShapeCasts S16x256x128
  shapeCasts_S16x256x128_S1x1x16x256x128 : S16x256x128.ShapeCasts S1x1x16x256x128
  bcast_S_S4x1x128x256x128 : S_.BroadcastsInDim S4x1x128x256x128 (![] : Fin 0 → Fin S4x1x128x256x128.rank)
  bcast_S4x1x128x256x128_S4x1x128x256x128x1_0_1_2_3_4 : S4x1x128x256x128.BroadcastsInDim S4x1x128x256x128x1 (![0, 1, 2, 3, 4] : Fin 5 → Fin S4x1x128x256x128x1.rank)
  concatenates_S4x1x128x256x128x1_S4x1x128x256x128x1_S4x1x128x256x128x2_d5 : Shape.Concatenates [S4x1x128x256x128x1, S4x1x128x256x128x1] S4x1x128x256x128x2 5
  shapeCasts_S4x1x128x256x128x2_S4x1x128x256x256 : S4x1x128x256x128x2.ShapeCasts S4x1x128x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x8x128x128.size a ≤ S4x8x64x128x128.size a
  hwx0_0 : ∀ i : grid0.Coords, EltTy.bits .f32 = 32 ∨ (Rect.block (s := S4x8x64x128x128) S1x8x8x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x16x256x128.size a ≤ S4x1x128x256x128.size a
  hwx0_1 : ∀ i : grid0.Coords, EltTy.bits .f32 = 32 ∨ (Rect.block (s := S4x1x128x256x128) S1x1x16x256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x16x256x128.size a ≤ S4x1x128x256x128.size a
  hwx0_2 : ∀ i : grid0.Coords, EltTy.bits .f32 = 32 ∨ (Rect.block (s := S4x1x128x256x128) S1x1x16x256x128.size (cc0_transform_2 i) (hinb0_2 i)).WholeWords (EltTy.packing .f32)

variable [Facts₀]

abbrev win0_0 : Pipeline.Window sig grid0 :=
  Pipeline.Window.ofSpec (Memref.whole main_arg0) S1x8x8x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1x16x256x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x16x256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8x64x128x128 : Shape := ⟨5, ![4, 8, 64, 128, 128]⟩
abbrev S4x1x64x128x128 : Shape := ⟨5, ![4, 1, 64, 128, 128]⟩
abbrev S_ : Shape := ⟨0, ![]⟩
abbrev S4x1x64x1x128x128 : Shape := ⟨6, ![4, 1, 64, 1, 128, 128]⟩
abbrev S4x1x64x2x128x128 : Shape := ⟨6, ![4, 1, 64, 2, 128, 128]⟩
abbrev S4x1x128x128x128 : Shape := ⟨5, ![4, 1, 128, 128, 128]⟩
abbrev S4x1x128x128x1x128 : Shape := ⟨6, ![4, 1, 128, 128, 1, 128]⟩
abbrev S4x1x128x128x2x128 : Shape := ⟨6, ![4, 1, 128, 128, 2, 128]⟩
abbrev S4x1x128x256x128 : Shape := ⟨5, ![4, 1, 128, 256, 128]⟩
abbrev S4x1x128x256x128x1 : Shape := ⟨6, ![4, 1, 128, 256, 128, 1]⟩
abbrev S4x1x128x256x128x2 : Shape := ⟨6, ![4, 1, 128, 256, 128, 2]⟩
abbrev S4x1x128x256x256 : Shape := ⟨5, ![4, 1, 128, 256, 256]⟩

abbrev nBuf : Space → Nat
  | .hbm => 93
  | .vmem => 0
  | .smem => 0
  | _ => 0

abbrev bufTy : (tb : Table) → Fin (tcTables nBuf tb) → BufTy
  | .hbm, ⟨0, _⟩ => ⟨S4x8x64x128x128, .f32⟩
  | .hbm, ⟨1, _⟩ => ⟨S4x1x64x128x128, .f32⟩
  | .hbm, ⟨2, _⟩ => ⟨S4x1x64x128x128, .f32⟩
  | .hbm, ⟨3, _⟩ => ⟨S4x1x64x128x128, .f32⟩
  | .hbm, ⟨4, _⟩ => ⟨S4x1x64x128x128, .f32⟩
  | .hbm, ⟨5, _⟩ => ⟨S4x1x64x128x128, .f32⟩
  | .hbm, ⟨6, _⟩ => ⟨S4x1x64x128x128, .f32⟩
  | .hbm, ⟨7, _⟩ => ⟨S4x1x64x128x128, .f32⟩
  | .hbm, ⟨8, _⟩ => ⟨S4x1x64x128x128, .f32⟩
  | .hbm, ⟨9, _⟩ => ⟨S4x1x64x128x128, .f32⟩
  | .hbm, ⟨10, _⟩ => ⟨S_, .f32⟩
  | .hbm, ⟨11, _⟩ => ⟨S4x1x64x128x128, .f32⟩
  | .hbm, ⟨12, _⟩ => ⟨S4x1x64x128x128, .f32⟩
  | .hbm, ⟨13, _⟩ => ⟨S4x1x64x128x128, .f32⟩
  | .hbm, ⟨14, _⟩ => ⟨S_, .f32⟩
  | .hbm, ⟨15, _⟩ => ⟨S4x1x64x128x128, .f32⟩
  | .hbm, ⟨16, _⟩ => ⟨S4x1x64x128x128, .f32⟩
  | .hbm, ⟨17, _⟩ => ⟨S4x1x64x1x128x128, .f32⟩
  | .hbm, ⟨18, _⟩ => ⟨S4x1x64x1x128x128, .f32⟩
  | .hbm, ⟨19, _⟩ => ⟨S4x1x64x2x128x128, .f32⟩
  | .hbm, ⟨20, _⟩ => ⟨S4x1x128x128x128, .f32⟩
  | .hbm, ⟨21, _⟩ => ⟨S4x1x64x128x128, .f32⟩
  | .hbm, ⟨22, _⟩ => ⟨S_, .f32⟩
  | .hbm, ⟨23, _⟩ => ⟨S4x1x64x128x128, .f32⟩
  | .hbm, ⟨24, _⟩ => ⟨S4x1x64x128x128, .f32⟩
  | .hbm, ⟨25, _⟩ => ⟨S4x1x64x128x128, .f32⟩
  | .hbm, ⟨26, _⟩ => ⟨S_, .f32⟩
  | .hbm, ⟨27, _⟩ => ⟨S4x1x64x128x128, .f32⟩
  | .hbm, ⟨28, _⟩ => ⟨S4x1x64x128x128, .f32⟩
  | .hbm, ⟨29, _⟩ => ⟨S4x1x64x1x128x128, .f32⟩
  | .hbm, ⟨30, _⟩ => ⟨S4x1x64x1x128x128, .f32⟩
  | .hbm, ⟨31, _⟩ => ⟨S4x1x64x2x128x128, .f32⟩
  | .hbm, ⟨32, _⟩ => ⟨S4x1x128x128x128, .f32⟩
  | .hbm, ⟨33, _⟩ => ⟨S4x1x64x128x128, .f32⟩
  | .hbm, ⟨34, _⟩ => ⟨S_, .f32⟩
  | .hbm, ⟨35, _⟩ => ⟨S4x1x64x128x128, .f32⟩
  | .hbm, ⟨36, _⟩ => ⟨S4x1x64x128x128, .f32⟩
  | .hbm, ⟨37, _⟩ => ⟨S4x1x64x128x128, .f32⟩
  | .hbm, ⟨38, _⟩ => ⟨S_, .f32⟩
  | .hbm, ⟨39, _⟩ => ⟨S4x1x64x128x128, .f32⟩
  | .hbm, ⟨40, _⟩ => ⟨S4x1x64x128x128, .f32⟩
  | .hbm, ⟨41, _⟩ => ⟨S4x1x64x1x128x128, .f32⟩
  | .hbm, ⟨42, _⟩ => ⟨S4x1x64x1x128x128, .f32⟩
  | .hbm, ⟨43, _⟩ => ⟨S4x1x64x2x128x128, .f32⟩
  | .hbm, ⟨44, _⟩ => ⟨S4x1x128x128x128, .f32⟩
  | .hbm, ⟨45, _⟩ => ⟨S4x1x64x128x128, .f32⟩
  | .hbm, ⟨46, _⟩ => ⟨S_, .f32⟩
  | .hbm, ⟨47, _⟩ => ⟨S4x1x64x128x128, .f32⟩
  | .hbm, ⟨48, _⟩ => ⟨S4x1x64x128x128, .f32⟩
  | .hbm, ⟨49, _⟩ => ⟨S4x1x64x128x128, .f32⟩
  | .hbm, ⟨50, _⟩ => ⟨S_, .f32⟩
  | .hbm, ⟨51, _⟩ => ⟨S4x1x64x128x128, .f32⟩
  | .hbm, ⟨52, _⟩ => ⟨S4x1x64x128x128, .f32⟩
  | .hbm, ⟨53, _⟩ => ⟨S4x1x64x1x128x128, .f32⟩
  | .hbm, ⟨54, _⟩ => ⟨S4x1x64x1x128x128, .f32⟩
  | .hbm, ⟨55, _⟩ => ⟨S4x1x64x2x128x128, .f32⟩
  | .hbm, ⟨56, _⟩ => ⟨S4x1x128x128x128, .f32⟩
  | .hbm, ⟨57, _⟩ => ⟨S4x1x128x128x128, .f32⟩
  | .hbm, ⟨58, _⟩ => ⟨S_, .f32⟩
  | .hbm, ⟨59, _⟩ => ⟨S4x1x128x128x128, .f32⟩
  | .hbm, ⟨60, _⟩ => ⟨S4x1x128x128x128, .f32⟩
  | .hbm, ⟨61, _⟩ => ⟨S4x1x128x128x128, .f32⟩
  | .hbm, ⟨62, _⟩ => ⟨S_, .f32⟩
  | .hbm, ⟨63, _⟩ => ⟨S4x1x128x128x128, .f32⟩
  | .hbm, ⟨64, _⟩ => ⟨S4x1x128x128x128, .f32⟩
  | .hbm, ⟨65, _⟩ => ⟨S4x1x128x128x1x128, .f32⟩
  | .hbm, ⟨66, _⟩ => ⟨S4x1x128x128x1x128, .f32⟩
  | .hbm, ⟨67, _⟩ => ⟨S4x1x128x128x2x128, .f32⟩
  | .hbm, ⟨68, _⟩ => ⟨S4x1x128x256x128, .f32⟩
  | .hbm, ⟨69, _⟩ => ⟨S4x1x128x128x128, .f32⟩
  | .hbm, ⟨70, _⟩ => ⟨S_, .f32⟩
  | .hbm, ⟨71, _⟩ => ⟨S4x1x128x128x128, .f32⟩
  | .hbm, ⟨72, _⟩ => ⟨S4x1x128x128x128, .f32⟩
  | .hbm, ⟨73, _⟩ => ⟨S4x1x128x128x128, .f32⟩
  | .hbm, ⟨74, _⟩ => ⟨S_, .f32⟩
  | .hbm, ⟨75, _⟩ => ⟨S4x1x128x128x128, .f32⟩
  | .hbm, ⟨76, _⟩ => ⟨S4x1x128x128x128, .f32⟩
  | .hbm, ⟨77, _⟩ => ⟨S4x1x128x128x1x128, .f32⟩
  | .hbm, ⟨78, _⟩ => ⟨S4x1x128x128x1x128, .f32⟩
  | .hbm, ⟨79, _⟩ => ⟨S4x1x128x128x2x128, .f32⟩
  | .hbm, ⟨80, _⟩ => ⟨S4x1x128x256x128, .f32⟩
  | .hbm, ⟨81, _⟩ => ⟨S4x1x128x256x128, .f32⟩
  | .hbm, ⟨82, _⟩ => ⟨S_, .f32⟩
  | .hbm, ⟨83, _⟩ => ⟨S4x1x128x256x128, .f32⟩
  | .hbm, ⟨84, _⟩ => ⟨S4x1x128x256x128, .f32⟩
  | .hbm, ⟨85, _⟩ => ⟨S4x1x128x256x128, .f32⟩
  | .hbm, ⟨86, _⟩ => ⟨S_, .f32⟩
  | .hbm, ⟨87, _⟩ => ⟨S4x1x128x256x128, .f32⟩
  | .hbm, ⟨88, _⟩ => ⟨S4x1x128x256x128, .f32⟩
  | .hbm, ⟨89, _⟩ => ⟨S4x1x128x256x128x1, .f32⟩
  | .hbm, ⟨90, _⟩ => ⟨S4x1x128x256x128x1, .f32⟩
  | .hbm, ⟨91, _⟩ => ⟨S4x1x128x256x128x2, .f32⟩
  | .hbm, ⟨92, _⟩ => ⟨S4x1x128x256x256, .f32⟩
  | _, _ => ⟨S4x8x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_1 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_2 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_3 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_4 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_5 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_6 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_7 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_8 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_9 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_10 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_cst_11 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_12 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩

abbrev nD : Nat := 1
abbrev τ : Topo := Topo.v7x

variable {F : FTy → Type} [FloatOps F]

class Facts₀ : Prop where
  slices_S4x8x64x128x128_S4x1x64x128x128_0_0_0_0_0 : S4x8x64x128x128.Slices ![0, 0, 0, 0, 0] S4x1x64x128x128
  slices_S4x8x64x128x128_S4x1x64x128x128_0_1_0_0_0 : S4x8x64x128x128.Slices ![0, 1, 0, 0, 0] S4x1x64x128x128
  slices_S4x8x64x128x128_S4x1x64x128x128_0_2_0_0_0 : S4x8x64x128x128.Slices ![0, 2, 0, 0, 0] S4x1x64x128x128
  slices_S4x8x64x128x128_S4x1x64x128x128_0_3_0_0_0 : S4x8x64x128x128.Slices ![0, 3, 0, 0, 0] S4x1x64x128x128
  slices_S4x8x64x128x128_S4x1x64x128x128_0_4_0_0_0 : S4x8x64x128x128.Slices ![0, 4, 0, 0, 0] S4x1x64x128x128
  slices_S4x8x64x128x128_S4x1x64x128x128_0_5_0_0_0 : S4x8x64x128x128.Slices ![0, 5, 0, 0, 0] S4x1x64x128x128
  slices_S4x8x64x128x128_S4x1x64x128x128_0_6_0_0_0 : S4x8x64x128x128.Slices ![0, 6, 0, 0, 0] S4x1x64x128x128
  slices_S4x8x64x128x128_S4x1x64x128x128_0_7_0_0_0 : S4x8x64x128x128.Slices ![0, 7, 0, 0, 0] S4x1x64x128x128
  bcast_S_S4x1x64x128x128 : S_.BroadcastsInDim S4x1x64x128x128 (![] : Fin 0 → Fin S4x1x64x128x128.rank)
  bcast_S4x1x64x128x128_S4x1x64x1x128x128_0_1_2_4_5 : S4x1x64x128x128.BroadcastsInDim S4x1x64x1x128x128 (![0, 1, 2, 4, 5] : Fin 5 → Fin S4x1x64x1x128x128.rank)
  concatenates_S4x1x64x1x128x128_S4x1x64x1x128x128_S4x1x64x2x128x128_d3 : Shape.Concatenates [S4x1x64x1x128x128, S4x1x64x1x128x128] S4x1x64x2x128x128 3
  shapeCasts_S4x1x64x2x128x128_S4x1x128x128x128 : S4x1x64x2x128x128.ShapeCasts S4x1x128x128x128
  bcast_S_S4x1x128x128x128 : S_.BroadcastsInDim S4x1x128x128x128 (![] : Fin 0 → Fin S4x1x128x128x128.rank)
  bcast_S4x1x128x128x128_S4x1x128x128x1x128_0_1_2_3_5 : S4x1x128x128x128.BroadcastsInDim S4x1x128x128x1x128 (![0, 1, 2, 3, 5] : Fin 5 → Fin S4x1x128x128x1x128.rank)
  concatenates_S4x1x128x128x1x128_S4x1x128x128x1x128_S4x1x128x128x2x128_d4 : Shape.Concatenates [S4x1x128x128x1x128, S4x1x128x128x1x128] S4x1x128x128x2x128 4
  shapeCasts_S4x1x128x128x2x128_S4x1x128x256x128 : S4x1x128x128x2x128.ShapeCasts S4x1x128x256x128
  bcast_S_S4x1x128x256x128 : S_.BroadcastsInDim S4x1x128x256x128 (![] : Fin 0 → Fin S4x1x128x256x128.rank)
  bcast_S4x1x128x256x128_S4x1x128x256x128x1_0_1_2_3_4 : S4x1x128x256x128.BroadcastsInDim S4x1x128x256x128x1 (![0, 1, 2, 3, 4] : Fin 5 → Fin S4x1x128x256x128x1.rank)
  concatenates_S4x1x128x256x128x1_S4x1x128x256x128x1_S4x1x128x256x128x2_d5 : Shape.Concatenates [S4x1x128x256x128x1, S4x1x128x256x128x1] S4x1x128x256x128x2 5
  shapeCasts_S4x1x128x256x128x2_S4x1x128x256x256 : S4x1x128x256x128x2.ShapeCasts S4x1x128x256x256

variable [Facts₀]

class Facts : Prop extends Facts₀ where

variable [Facts]
-- ==== Proof.Interleave.lean ====
/-
  Stacking two arrays of one shape on a NEW axis of extent two placed right after an axis, and then flattening
  that axis pair into one axis of twice the extent, interleaves them: along the doubled axis the even positions hold
  the first array and the odd positions the second, at half the position. The four lemmas below read that
  composite at an index, for the four shapes at which the inverse Haar step meets it: the reference's depth and
  height steps on rank-5 arrays (the new axis made by a broadcast), and the kernel's on rank-3 blocks (the new axis
  made by a shape cast). Each is the row-major equation of the flattening, the choice of the piece by the parity,
  and the new unit axis read away.
-/
import Idealize.ShloMosaic.Lib.Pipeline.Value
import Idealize.ShloMosaic.Lib.ValueIdx
import Idealize.ShloMosaic.Lib.ValueIdxRank6

noncomputable section

namespace Cert.Haar

open Idealize.ShloMosaic Idealize.ShloMosaic.ValueIdx

variable {α : Type}

/-- Rank 5, doubled axis 2 (depth): position `d` of the result is position `d / 2` of the first array when `d` is
    even and of the second when `d` is odd. -/
theorem interleave5_depth (A B : (⟨5, ![4, 1, 64, 128, 128]⟩ : Shape).Idx → α)
    (hb : (⟨5, ![4, 1, 64, 128, 128]⟩ : Shape).BroadcastsInDim ⟨6, ![4, 1, 64, 1, 128, 128]⟩ ![0, 1, 2, 4, 5])
    (hc : Shape.Concatenates [(⟨6, ![4, 1, 64, 1, 128, 128]⟩ : Shape), ⟨6, ![4, 1, 64, 1, 128, 128]⟩] ⟨6, ![4, 1, 64, 2, 128, 128]⟩ 3)
    (hs : (⟨6, ![4, 1, 64, 2, 128, 128]⟩ : Shape).ShapeCasts ⟨5, ![4, 1, 128, 128, 128]⟩)
    (b : Fin 4) (u : Fin 1) (d : Fin 128) (h w : Fin 128) :
    shapeCast ⟨5, ![4, 1, 128, 128, 128]⟩ (concatenate ⟨6, ![4, 1, 64, 2, 128, 128]⟩ 3
        [⟨⟨6, ![4, 1, 64, 1, 128, 128]⟩, broadcastInDim ⟨6, ![4, 1, 64, 1, 128, 128]⟩ ![0, 1, 2, 4, 5] hb A⟩,
         ⟨⟨6, ![4, 1, 64, 1, 128, 128]⟩, broadcastInDim ⟨6, ![4, 1, 64, 1, 128, 128]⟩ ![0, 1, 2, 4, 5] hb B⟩] hc) hs (ix5 b u d h w)
      = if d.val % 2 = 0 then A (ix5 b u ⟨d.val / 2, by omega⟩ h w) else B (ix5 b u ⟨d.val / 2, by omega⟩ h w) := by
  have hu : u.val = 0 := by omega
  have hd := d.isLt
  refine (shapeCast_apply _ hs (ix5 b u d h w) (ix6 b u ⟨d.val / 2, by omega⟩ ⟨d.val % 2, by omega⟩ h w) ?_).trans ?_
  · rw [Shape.rowMajor_val_six, Shape.rowMajor_val_five]
    show ((((b.val * 1 + u.val) * 64 + d.val / 2) * 2 + d.val % 2) * 128 + h.val) * 128 + w.val
      = (((b.val * 1 + u.val) * 128 + d.val) * 128 + h.val) * 128 + w.val
    omega
  · split
    · rename_i h0
      refine (concatenate_pair_apply_left 3 _ _ hc _ rfl (ix6 b u ⟨d.val / 2, by omega⟩ (0 : Fin 1) h w) ?_).trans ?_
      · intro a
        match a with
        | ⟨0, _⟩ => rfl
        | ⟨1, _⟩ => rfl
        | ⟨2, _⟩ => rfl
        | ⟨3, _⟩ => exact h0.symm
        | ⟨4, _⟩ => rfl
        | ⟨5, _⟩ => rfl
      · refine broadcastInDim_apply _ hb A _ (ix5 b u ⟨d.val / 2, by omega⟩ h w) ?_
        intro a
        match a with
        | ⟨0, _⟩ => rfl
        | ⟨1, _⟩ => exact hu
        | ⟨2, _⟩ => rfl
        | ⟨3, _⟩ => rfl
        | ⟨4, _⟩ => rfl
    · rename_i h1
      have h1' : d.val % 2 = 1 := by omega
      refine (concatenate_pair_apply_right 3 _ _ hc _ rfl rfl (ix6 b u ⟨d.val / 2, by omega⟩ (0 : Fin 1) h w) ?_ ?_).trans ?_
      · intro a ha
        match a with
        | ⟨0, _⟩ => rfl
        | ⟨1, _⟩ => rfl
        | ⟨2, _⟩ => rfl
        | ⟨3, _⟩ => exact absurd rfl ha
        | ⟨4, _⟩ => rfl
        | ⟨5, _⟩ => rfl
      · show 0 + 1 = d.val % 2
        omega
      · refine broadcastInDim_apply _ hb B _ (ix5 b u ⟨d.val / 2, by omega⟩ h w) ?_
        intro a
        match a with
        | ⟨0, _⟩ => rfl
        | ⟨1, _⟩ => exact hu
        | ⟨2, _⟩ => rfl
        | ⟨3, _⟩ => rfl
        | ⟨4, _⟩ => rfl

/-- Rank 5, doubled axis 3 (height): position `h` of the result is position `h / 2` of the first array when `h` is
    even and of the second when `h` is odd. -/
theorem interleave5_height (A B : (⟨5, ![4, 1, 128, 128, 128]⟩ : Shape).Idx → α)
    (hb : (⟨5, ![4, 1, 128, 128, 128]⟩ : Shape).BroadcastsInDim ⟨6, ![4, 1, 128, 128, 1, 128]⟩ ![0, 1, 2, 3, 5])
    (hc : Shape.Concatenates [(⟨6, ![4, 1, 128, 128, 1, 128]⟩ : Shape), ⟨6, ![4, 1, 128, 128, 1, 128]⟩] ⟨6, ![4, 1, 128, 128, 2, 128]⟩ 4)
    (hs : (⟨6, ![4, 1, 128, 128, 2, 128]⟩ : Shape).ShapeCasts ⟨5, ![4, 1, 128, 256, 128]⟩)
    (b : Fin 4) (u : Fin 1) (d : Fin 128) (h : Fin 256) (w : Fin 128) :
    shapeCast ⟨5, ![4, 1, 128, 256, 128]⟩ (concatenate ⟨6, ![4, 1, 128, 128, 2, 128]⟩ 4
        [⟨⟨6, ![4, 1, 128, 128, 1, 128]⟩, broadcastInDim ⟨6, ![4, 1, 128, 128, 1, 128]⟩ ![0, 1, 2, 3, 5] hb A⟩,
         ⟨⟨6, ![4, 1, 128, 128, 1, 128]⟩, broadcastInDim ⟨6, ![4, 1, 128, 128, 1, 128]⟩ ![0, 1, 2, 3, 5] hb B⟩] hc) hs (ix5 b u d h w)
      = if h.val % 2 = 0 then A (ix5 b u d ⟨h.val / 2, by omega⟩ w) else B (ix5 b u d ⟨h.val / 2, by omega⟩ w) := by
  have hu : u.val = 0 := by omega
  have hh := h.isLt
  refine (shapeCast_apply _ hs (ix5 b u d h w) (ix6 b u d ⟨h.val / 2, by omega⟩ ⟨h.val % 2, by omega⟩ w) ?_).trans ?_
  · rw [Shape.rowMajor_val_six, Shape.rowMajor_val_five]
    show ((((b.val * 1 + u.val) * 128 + d.val) * 128 + h.val / 2) * 2 + h.val % 2) * 128 + w.val
      = (((b.val * 1 + u.val) * 128 + d.val) * 256 + h.val) * 128 + w.val
    omega
  · split
    · rename_i h0
      refine (concatenate_pair_apply_left 4 _ _ hc _ rfl (ix6 b u d ⟨h.val / 2, by omega⟩ (0 : Fin 1) w) ?_).trans ?_
      · intro a
        match a with
        | ⟨0, _⟩ => rfl
        | ⟨1, _⟩ => rfl
        | ⟨2, _⟩ => rfl
        | ⟨3, _⟩ => rfl
        | ⟨4, _⟩ => exact h0.symm
        | ⟨5, _⟩ => rfl
      · refine broadcastInDim_apply _ hb A _ (ix5 b u d ⟨h.val / 2, by omega⟩ w) ?_
        intro a
        match a with
        | ⟨0, _⟩ => rfl
        | ⟨1, _⟩ => exact hu
        | ⟨2, _⟩ => rfl
        | ⟨3, _⟩ => rfl
        | ⟨4, _⟩ => rfl
    · rename_i h1
      refine (concatenate_pair_apply_right 4 _ _ hc _ rfl rfl (ix6 b u d ⟨h.val / 2, by omega⟩ (0 : Fin 1) w) ?_ ?_).trans ?_
      · intro a ha
        match a with
        | ⟨0, _⟩ => rfl
        | ⟨1, _⟩ => rfl
        | ⟨2, _⟩ => rfl
        | ⟨3, _⟩ => rfl
        | ⟨4, _⟩ => exact absurd rfl ha
        | ⟨5, _⟩ => rfl
      · show 0 + 1 = h.val % 2
        omega
      · refine broadcastInDim_apply _ hb B _ (ix5 b u d ⟨h.val / 2, by omega⟩ w) ?_
        intro a
        match a with
        | ⟨0, _⟩ => rfl
        | ⟨1, _⟩ => exact hu
        | ⟨2, _⟩ => rfl
        | ⟨3, _⟩ => rfl
        | ⟨4, _⟩ => rfl

/-- Rank 3, doubled axis 0 (a block's depth), the new axis made by a shape cast: plane `d` of the result is plane
    `d / 2` of the first block when `d` is even and of the second when `d` is odd. -/
theorem interleave3_depth (A B : (⟨3, ![8, 128, 128]⟩ : Shape).Idx → α)
    (h1 : (⟨3, ![8, 128, 128]⟩ : Shape).ShapeCasts ⟨4, ![8, 1, 128, 128]⟩)
    (hc : Shape.Concatenates [(⟨4, ![8, 1, 128, 128]⟩ : Shape), ⟨4, ![8, 1, 128, 128]⟩] ⟨4, ![8, 2, 128, 128]⟩ 1)
    (hs : (⟨4, ![8, 2, 128, 128]⟩ : Shape).ShapeCasts ⟨3, ![16, 128, 128]⟩)
    (d : Fin 16) (h w : Fin 128) :
    shapeCast ⟨3, ![16, 128, 128]⟩ (concatenate ⟨4, ![8, 2, 128, 128]⟩ 1
        [⟨⟨4, ![8, 1, 128, 128]⟩, shapeCast ⟨4, ![8, 1, 128, 128]⟩ A h1⟩,
         ⟨⟨4, ![8, 1, 128, 128]⟩, shapeCast ⟨4, ![8, 1, 128, 128]⟩ B h1⟩] hc) hs (ix3 d h w)
      = if d.val % 2 = 0 then A (ix3 ⟨d.val / 2, by omega⟩ h w) else B (ix3 ⟨d.val / 2, by omega⟩ h w) := by
  have hd := d.isLt
  refine (shapeCast_apply _ hs (ix3 d h w) (ix4 ⟨d.val / 2, by omega⟩ ⟨d.val % 2, by omega⟩ h w) ?_).trans ?_
  · rw [Shape.rowMajor_val_four, Shape.rowMajor_val_three]
    show ((d.val / 2 * 2 + d.val % 2) * 128 + h.val) * 128 + w.val = (d.val * 128 + h.val) * 128 + w.val
    omega
  · split
    · rename_i h0
      refine (concatenate_pair_apply_left 1 _ _ hc _ rfl (ix4 ⟨d.val / 2, by omega⟩ (0 : Fin 1) h w) ?_).trans ?_
      · intro a
        match a with
        | ⟨0, _⟩ => rfl
        | ⟨1, _⟩ => exact h0.symm
        | ⟨2, _⟩ => rfl
        | ⟨3, _⟩ => rfl
      · refine shapeCast_apply A h1 _ (ix3 ⟨d.val / 2, by omega⟩ h w) ?_
        rw [Shape.rowMajor_val_four, Shape.rowMajor_val_three]
        show (d.val / 2 * 128 + h.val) * 128 + w.val = ((d.val / 2 * 1 + 0) * 128 + h.val) * 128 + w.val
        omega
    · rename_i h1'
      refine (concatenate_pair_apply_right 1 _ _ hc _ rfl rfl (ix4 ⟨d.val / 2, by omega⟩ (0 : Fin 1) h w) ?_ ?_).trans ?_
      · intro a ha
        match a with
        | ⟨0, _⟩ => rfl
        | ⟨1, _⟩ => exact absurd rfl ha
        | ⟨2, _⟩ => rfl
        | ⟨3, _⟩ => rfl
      · show 0 + 1 = d.val % 2
        omega
      · refine shapeCast_apply B h1 _ (ix3 ⟨d.val / 2, by omega⟩ h w) ?_
        rw [Shape.rowMajor_val_four, Shape.rowMajor_val_three]
        show (d.val / 2 * 128 + h.val) * 128 + w.val = ((d.val / 2 * 1 + 0) * 128 + h.val) * 128 + w.val
        omega

/-- Rank 3, doubled axis 1 (a block's height), the new axis made by a shape cast: row `h` of the result is row
    `h / 2` of the first block when `h` is even and of the second when `h` is odd. -/
theorem interleave3_height (A B : (⟨3, ![16, 128, 128]⟩ : Shape).Idx → α)
    (h1 : (⟨3, ![16, 128, 128]⟩ : Shape).ShapeCasts ⟨4, ![16, 128, 1, 128]⟩)
    (hc : Shape.Concatenates [(⟨4, ![16, 128, 1, 128]⟩ : Shape), ⟨4, ![16, 128, 1, 128]⟩] ⟨4, ![16, 128, 2, 128]⟩ 2)
    (hs : (⟨4, ![16, 128, 2, 128]⟩ : Shape).ShapeCasts ⟨3, ![16, 256, 128]⟩)
    (d : Fin 16) (h : Fin 256) (w : Fin 128) :
    shapeCast ⟨3, ![16, 256, 128]⟩ (concatenate ⟨4, ![16, 128, 2, 128]⟩ 2
        [⟨⟨4, ![16, 128, 1, 128]⟩, shapeCast ⟨4, ![16, 128, 1, 128]⟩ A h1⟩,
         ⟨⟨4, ![16, 128, 1, 128]⟩, shapeCast ⟨4, ![16, 128, 1, 128]⟩ B h1⟩] hc) hs (ix3 d h w)
      = if h.val % 2 = 0 then A (ix3 d ⟨h.val / 2, by omega⟩ w) else B (ix3 d ⟨h.val / 2, by omega⟩ w) := by
  have hh := h.isLt
  refine (shapeCast_apply _ hs (ix3 d h w) (ix4 d ⟨h.val / 2, by omega⟩ ⟨h.val % 2, by omega⟩ w) ?_).trans ?_
  · rw [Shape.rowMajor_val_four, Shape.rowMajor_val_three]
    show ((d.val * 128 + h.val / 2) * 2 + h.val % 2) * 128 + w.val = (d.val * 256 + h.val) * 128 + w.val
    omega
  · split
    · rename_i h0
      refine (concatenate_pair_apply_left 2 _ _ hc _ rfl (ix4 d ⟨h.val / 2, by omega⟩ (0 : Fin 1) w) ?_).trans ?_
      · intro a
        match a with
        | ⟨0, _⟩ => rfl
        | ⟨1, _⟩ => rfl
        | ⟨2, _⟩ => exact h0.symm
        | ⟨3, _⟩ => rfl
      · refine shapeCast_apply A h1 _ (ix3 d ⟨h.val / 2, by omega⟩ w) ?_
        rw [Shape.rowMajor_val_four, Shape.rowMajor_val_three]
        show (d.val * 128 + h.val / 2) * 128 + w.val = ((d.val * 128 + h.val / 2) * 1 + 0) * 128 + w.val
        omega
    · rename_i h1'
      refine (concatenate_pair_apply_right 2 _ _ hc _ rfl rfl (ix4 d ⟨h.val / 2, by omega⟩ (0 : Fin 1) w) ?_ ?_).trans ?_
      · intro a ha
        match a with
        | ⟨0, _⟩ => rfl
        | ⟨1, _⟩ => rfl
        | ⟨2, _⟩ => exact absurd rfl ha
        | ⟨3, _⟩ => rfl
      · show 0 + 1 = h.val % 2
        omega
      · refine shapeCast_apply B h1 _ (ix3 d ⟨h.val / 2, by omega⟩ w) ?_
        rw [Shape.rowMajor_val_four, Shape.rowMajor_val_three]
        show (d.val * 128 + h.val / 2) * 128 + w.val = ((d.val * 128 + h.val / 2) * 1 + 0) * 128 + w.val
        omega

end Cert.Haar

end
-- ==== Proof.Spec.lean ====
/-
  The inverse Haar step, index by index. The input `z` holds eight sub-bands on its axis 1, each of half extent
  along depth, height and width. One step along an axis joins a low band `lo` and a high band `hi` into an array
  of twice the extent there: position `2 n` holds `(lo n + hi n) * c` and position `2 n + 1` holds
  `(lo n - hi n) * c`, with `c` the single-precision word nearest to 1/√2. Both programs apply the step along
  depth to the band pairs (0,4), (1,5), (2,6), (3,7), then along height to the resulting pairs (0,1) and (2,3);
  the two arrays that leaves, `wLow` and `wHigh`, are defined here as functions of `z` at an index, over the
  extended reals. The last step, along width, is the same text in both programs and is never opened.
-/
import Idealize.ShloMosaic.PureOps.Ideal
import Idealize.ShloMosaic.Lib.ValueIdx

noncomputable section

namespace Cert.Haar

open Idealize.ShloMosaic Idealize.ShloMosaic.ValueIdx

/-- The scale: the single-precision word `0x3F3504F3` read as an extended real. It is the same word wherever
    either program multiplies by it, so its value is never needed. -/
def c : EReal := Ideal.ofBits .f32 0x3F3504F3#32

/-- One reconstruction step at a position of parity `p`: the scaled sum at an even position, the scaled
    difference at an odd one. -/
def step (p : Nat) (lo hi : EReal) : EReal := if p % 2 = 0 then (lo + hi) * c else (lo - hi) * c

theorem step_even {p : Nat} (h : p % 2 = 0) (lo hi : EReal) : step p lo hi = (lo + hi) * c := if_pos h
theorem step_odd {p : Nat} (h : ¬ p % 2 = 0) (lo hi : EReal) : step p lo hi = (lo - hi) * c := if_neg h

/-- The step depends on the position only through its parity. -/
theorem step_congr {p q : Nat} (h : p % 2 = q % 2) {lo lo' hi hi' : EReal} (hl : lo = lo') (hh : hi = hi') :
    step p lo hi = step q lo' hi' := by
  subst hl hh; unfold step; rw [h]

/-- Bands `k` and `k + 4` joined along depth: at depth `d` the step of parity `d` on the two bands at depth `d / 2`. -/
def depthMerged (z : (⟨5, ![4, 8, 64, 128, 128]⟩ : Shape).Idx → EReal) (k : Fin 4) (b : Fin 4) (d : Fin 128) (h w : Fin 128) : EReal :=
  step d.val (z (ix5 b (⟨k.val, by omega⟩ : Fin 8) (⟨d.val / 2, by omega⟩ : Fin 64) h w))
    (z (ix5 b (⟨k.val + 4, by omega⟩ : Fin 8) (⟨d.val / 2, by omega⟩ : Fin 64) h w))

/-- The depth-joined arrays `2 k` and `2 k + 1` joined along height: at height `h` the step of parity `h` on the two
    at height `h / 2`. -/
def heightMerged (z : (⟨5, ![4, 8, 64, 128, 128]⟩ : Shape).Idx → EReal) (k : Fin 2) (b : Fin 4) (d : Fin 128) (h : Fin 256) (w : Fin 128) : EReal :=
  step h.val (depthMerged z ⟨2 * k.val, by omega⟩ b d ⟨h.val / 2, by omega⟩ w)
    (depthMerged z ⟨2 * k.val + 1, by omega⟩ b d ⟨h.val / 2, by omega⟩ w)

/-- The low half before the width step: bands 0, 4, 1, 5. -/
def wLow (z : (⟨5, ![4, 8, 64, 128, 128]⟩ : Shape).Idx → EReal) : (⟨5, ![4, 1, 128, 256, 128]⟩ : Shape).Idx → EReal :=
  fun i => heightMerged z 0 (i 0) (i 2) (i 3) (i 4)

/-- The high half before the width step: bands 2, 6, 3, 7. -/
def wHigh (z : (⟨5, ![4, 8, 64, 128, 128]⟩ : Shape).Idx → EReal) : (⟨5, ![4, 1, 128, 256, 128]⟩ : Shape).Idx → EReal :=
  fun i => heightMerged z 1 (i 0) (i 2) (i 3) (i 4)

/-- The step along width, as both programs spell it on whole arrays: the scaled sum and the scaled difference
    stacked on a new last axis and flattened into the width. Both programs end with this text on their two
    halves, so the claim needs only that the halves agree; it is never read at an index. -/
def widthStep (lo hi : FVec Ideal ⟨5, ![4, 1, 128, 256, 128]⟩ .f32) : FVec Ideal ⟨5, ![4, 1, 128, 256, 256]⟩ .f32 :=
  shapeCast ⟨5, ![4, 1, 128, 256, 256]⟩ (concatenate ⟨6, ![4, 1, 128, 256, 128, 2]⟩ 5
    [⟨⟨6, ![4, 1, 128, 256, 128, 1]⟩, broadcastInDim ⟨6, ![4, 1, 128, 256, 128, 1]⟩ (![0, 1, 2, 3, 4] : Fin 5 → Fin 6) (by decide)
        (mulf (addf lo hi) (broadcastInDim ⟨5, ![4, 1, 128, 256, 128]⟩ (![] : Fin 0 → Fin 5) (by decide) (constant (F := Ideal) ⟨0, ![]⟩ .f32 0x3F3504F3#32)))⟩,
     ⟨⟨6, ![4, 1, 128, 256, 128, 1]⟩, broadcastInDim ⟨6, ![4, 1, 128, 256, 128, 1]⟩ (![0, 1, 2, 3, 4] : Fin 5 → Fin 6) (by decide)
        (mulf (subf lo hi) (broadcastInDim ⟨5, ![4, 1, 128, 256, 128]⟩ (![] : Fin 0 → Fin 5) (by decide) (constant (F := Ideal) ⟨0, ![]⟩ .f32 0x3F3504F3#32)))⟩]
    (show Shape.Concatenates [(⟨6, ![4, 1, 128, 256, 128, 1]⟩ : Shape), ⟨6, ![4, 1, 128, 256, 128, 1]⟩] ⟨6, ![4, 1, 128, 256, 128, 2]⟩ 5 from by decide))
    (by decide)

end Cert.Haar

end
-- ==== Proof.Steps.lean ====
/-
  One inverse Haar step as each program spells it, read at an index and identified with the specification
  (`depthMerged`, `heightMerged`). The operands are given by what they hold at an index: for the reference the
  rank-5 arrays cut out of `z`, for the kernel the rank-3 planes of the block of `z` that grid point (b, t) is
  handed, whose depth `dd` is depth `8 t + dd` of `z` (so the block's output depth `d` is depth `16 t + d`, of
  the same parity and with `(16 t + d) / 2 = 8 t + d / 2`). In each lemma the scaled sum and the scaled
  difference are stacked and flattened (Interleave), and the parity picks the branch of `step`.
-/
import proofs.«162395_j66924180407100_1_alg».proof.Proof.Interleave
import Idealize.ShloMosaic.Lib.Pipeline.FrameBody
import proofs.«162395_j66924180407100_1_alg».proof.Proof.Spec

noncomputable section

namespace Cert.Haar

open Idealize.ShloMosaic Idealize.ShloMosaic.ValueIdx

/-- The reference cuts band `k` out of `z` by a unit-stride slice at offset `k` on axis 1. -/
theorem ref_band {α : Type} (z : (⟨5, ![4, 8, 64, 128, 128]⟩ : Shape).Idx → α) (k : Fin 8) (off : Fin 5 → Nat)
    (hoff : off = ![0, k.val, 0, 0, 0])
    (hsl : (⟨5, ![4, 8, 64, 128, 128]⟩ : Shape).Slices off ⟨5, ![4, 1, 64, 128, 128]⟩)
    (b : Fin 4) (u : Fin 1) (dd : Fin 64) (h w : Fin 128) :
    extractStridedSlice ⟨5, ![4, 1, 64, 128, 128]⟩ off z hsl (ix5 b u dd h w) = z (ix5 b k dd h w) := by
  subst hoff
  have hu : u.val = 0 := by omega
  refine extractStridedSlice_apply _ z hsl _ _ ?_
  intro a
  match a with
  | ⟨0, _⟩ => show b.val = 0 + b.val; omega
  | ⟨1, _⟩ => show k.val = k.val + u.val; omega
  | ⟨2, _⟩ => show dd.val = 0 + dd.val; omega
  | ⟨3, _⟩ => show h.val = 0 + h.val; omega
  | ⟨4, _⟩ => show w.val = 0 + w.val; omega

/-- The kernel loads band `k` of its block through the rectangle at offset `k` on axis 1 and drops the two
    leading unit axes. -/
theorem blk_band {Val : EltTy → Type} {e : EltTy} (x : (⟨5, ![1, 8, 8, 128, 128]⟩ : Shape).Idx → Val e) (k : Fin 8) (off : Fin 5 → Nat)
    (hoff : off = ![0, k.val, 0, 0, 0])
    (inb : ∀ a, off a + (⟨5, ![1, 1, 8, 128, 128]⟩ : Shape).size a ≤ (⟨5, ![1, 8, 8, 128, 128]⟩ : Shape).size a)
    (hs : (⟨5, ![1, 1, 8, 128, 128]⟩ : Shape).ShapeCasts ⟨3, ![8, 128, 128]⟩)
    (dd : Fin 8) (h w : Fin 128) :
    shapeCast ⟨3, ![8, 128, 128]⟩ (View.ld x (Rect.unit (s := ⟨5, ![1, 8, 8, 128, 128]⟩) off (⟨5, ![1, 1, 8, 128, 128]⟩ : Shape).size inb)) hs (ix3 dd h w)
      = x (ix5 0 k dd h w) := by
  subst hoff
  refine (shapeCast_apply _ hs (ix3 dd h w) (ix5 (0 : Fin 1) (0 : Fin 1) dd h w) ?_).trans ?_
  · rw [Shape.rowMajor_val_five, Shape.rowMajor_val_three]
    show (((0 * 1 + 0) * 8 + dd.val) * 128 + h.val) * 128 + w.val = (dd.val * 128 + h.val) * 128 + w.val
    omega
  · show x _ = x _
    refine congrArg x (funext fun a => Fin.ext ?_)
    match a with
    | ⟨0, _⟩ => show 0 + 1 * 0 = 0; rfl
    | ⟨1, _⟩ => show k.val + 1 * 0 = k.val; omega
    | ⟨2, _⟩ => show 0 + 1 * dd.val = dd.val; omega
    | ⟨3, _⟩ => show 0 + 1 * h.val = h.val; omega
    | ⟨4, _⟩ => show 0 + 1 * w.val = w.val; omega

/-- The scale as either program makes it: the word's splat over any shape, from a rank-0 constant. -/
theorem scale_bcast (t : Shape) (hb : (⟨0, ![]⟩ : Shape).BroadcastsInDim t ![]) (i : t.Idx) :
    broadcastInDim t ![] hb (constant (F := Ideal) ⟨0, ![]⟩ .f32 0x3F3504F3#32) i = c :=
  broadcastInDim_apply _ hb _ i (fun a => a.elim0) (fun a => a.elim0)

/-- The reference's step along depth on the bands `k` and `k + 4` of `z`. -/
theorem ref_depth_step (z : (⟨5, ![4, 8, 64, 128, 128]⟩ : Shape).Idx → EReal) (k : Fin 4)
    (lo hi c₁ c₂ : FVec Ideal ⟨5, ![4, 1, 64, 128, 128]⟩ .f32)
    (hlo : ∀ (b : Fin 4) (u : Fin 1) (dd : Fin 64) (h w : Fin 128), lo (ix5 b u dd h w) = z (ix5 b (⟨k.val, by omega⟩ : Fin 8) dd h w))
    (hhi : ∀ (b : Fin 4) (u : Fin 1) (dd : Fin 64) (h w : Fin 128), hi (ix5 b u dd h w) = z (ix5 b (⟨k.val + 4, by omega⟩ : Fin 8) dd h w))
    (hc₁ : ∀ i, c₁ i = c) (hc₂ : ∀ i, c₂ i = c)
    (hb : (⟨5, ![4, 1, 64, 128, 128]⟩ : Shape).BroadcastsInDim ⟨6, ![4, 1, 64, 1, 128, 128]⟩ ![0, 1, 2, 4, 5])
    (hc : Shape.Concatenates [(⟨6, ![4, 1, 64, 1, 128, 128]⟩ : Shape), ⟨6, ![4, 1, 64, 1, 128, 128]⟩] ⟨6, ![4, 1, 64, 2, 128, 128]⟩ 3)
    (hs : (⟨6, ![4, 1, 64, 2, 128, 128]⟩ : Shape).ShapeCasts ⟨5, ![4, 1, 128, 128, 128]⟩)
    (b : Fin 4) (u : Fin 1) (d : Fin 128) (h w : Fin 128) :
    shapeCast ⟨5, ![4, 1, 128, 128, 128]⟩ (concatenate ⟨6, ![4, 1, 64, 2, 128, 128]⟩ 3
        [⟨⟨6, ![4, 1, 64, 1, 128, 128]⟩, broadcastInDim ⟨6, ![4, 1, 64, 1, 128, 128]⟩ ![0, 1, 2, 4, 5] hb (mulf (addf lo hi) c₁)⟩,
         ⟨⟨6, ![4, 1, 64, 1, 128, 128]⟩, broadcastInDim ⟨6, ![4, 1, 64, 1, 128, 128]⟩ ![0, 1, 2, 4, 5] hb (mulf (subf lo hi) c₂)⟩] hc) hs (ix5 b u d h w)
      = depthMerged z k b d h w := by
  rw [interleave5_depth]
  unfold depthMerged
  split
  · rename_i h0
    rw [step_even h0, mulf_apply, addf_apply, hlo, hhi, hc₁]
  · rename_i h0
    rw [step_odd h0, mulf_apply, subf_apply, hlo, hhi, hc₂]

/-- The reference's step along height on the depth-joined arrays `2 k` and `2 k + 1`. -/
theorem ref_height_step (z : (⟨5, ![4, 8, 64, 128, 128]⟩ : Shape).Idx → EReal) (k : Fin 2)
    (lo hi c₁ c₂ : FVec Ideal ⟨5, ![4, 1, 128, 128, 128]⟩ .f32)
    (hlo : ∀ (b : Fin 4) (u : Fin 1) (d : Fin 128) (hh w : Fin 128), lo (ix5 b u d hh w) = depthMerged z ⟨2 * k.val, by omega⟩ b d hh w)
    (hhi : ∀ (b : Fin 4) (u : Fin 1) (d : Fin 128) (hh w : Fin 128), hi (ix5 b u d hh w) = depthMerged z ⟨2 * k.val + 1, by omega⟩ b d hh w)
    (hc₁ : ∀ i, c₁ i = c) (hc₂ : ∀ i, c₂ i = c)
    (hb : (⟨5, ![4, 1, 128, 128, 128]⟩ : Shape).BroadcastsInDim ⟨6, ![4, 1, 128, 128, 1, 128]⟩ ![0, 1, 2, 3, 5])
    (hc : Shape.Concatenates [(⟨6, ![4, 1, 128, 128, 1, 128]⟩ : Shape), ⟨6, ![4, 1, 128, 128, 1, 128]⟩] ⟨6, ![4, 1, 128, 128, 2, 128]⟩ 4)
    (hs : (⟨6, ![4, 1, 128, 128, 2, 128]⟩ : Shape).ShapeCasts ⟨5, ![4, 1, 128, 256, 128]⟩)
    (b : Fin 4) (u : Fin 1) (d : Fin 128) (h : Fin 256) (w : Fin 128) :
    shapeCast ⟨5, ![4, 1, 128, 256, 128]⟩ (concatenate ⟨6, ![4, 1, 128, 128, 2, 128]⟩ 4
        [⟨⟨6, ![4, 1, 128, 128, 1, 128]⟩, broadcastInDim ⟨6, ![4, 1, 128, 128, 1, 128]⟩ ![0, 1, 2, 3, 5] hb (mulf (addf lo hi) c₁)⟩,
         ⟨⟨6, ![4, 1, 128, 128, 1, 128]⟩, broadcastInDim ⟨6, ![4, 1, 128, 128, 1, 128]⟩ ![0, 1, 2, 3, 5] hb (mulf (subf lo hi) c₂)⟩] hc) hs (ix5 b u d h w)
      = heightMerged z k b d h w := by
  rw [interleave5_height]
  unfold heightMerged
  split
  · rename_i h0
    rw [step_even h0, mulf_apply, addf_apply, hlo, hhi, hc₁]
  · rename_i h0
    rw [step_odd h0, mulf_apply, subf_apply, hlo, hhi, hc₂]

/-- The kernel's step along depth on the planes of bands `k` and `k + 4` in the block of grid point (b, t). -/
theorem blk_depth_step (z : (⟨5, ![4, 8, 64, 128, 128]⟩ : Shape).Idx → EReal) (k : Fin 4) (b : Fin 4) (t : Fin 8)
    (lo hi c₁ c₂ : FVec Ideal ⟨3, ![8, 128, 128]⟩ .f32)
    (hlo : ∀ (dd : Fin 8) (h w : Fin 128), lo (ix3 dd h w) = z (ix5 b (⟨k.val, by omega⟩ : Fin 8) (⟨8 * t.val + dd.val, by omega⟩ : Fin 64) h w))
    (hhi : ∀ (dd : Fin 8) (h w : Fin 128), hi (ix3 dd h w) = z (ix5 b (⟨k.val + 4, by omega⟩ : Fin 8) (⟨8 * t.val + dd.val, by omega⟩ : Fin 64) h w))
    (hc₁ : ∀ i, c₁ i = c) (hc₂ : ∀ i, c₂ i = c)
    (h1 : (⟨3, ![8, 128, 128]⟩ : Shape).ShapeCasts ⟨4, ![8, 1, 128, 128]⟩)
    (hc : Shape.Concatenates [(⟨4, ![8, 1, 128, 128]⟩ : Shape), ⟨4, ![8, 1, 128, 128]⟩] ⟨4, ![8, 2, 128, 128]⟩ 1)
    (hs : (⟨4, ![8, 2, 128, 128]⟩ : Shape).ShapeCasts ⟨3, ![16, 128, 128]⟩)
    (d : Fin 16) (h w : Fin 128) :
    shapeCast ⟨3, ![16, 128, 128]⟩ (concatenate ⟨4, ![8, 2, 128, 128]⟩ 1
        [⟨⟨4, ![8, 1, 128, 128]⟩, shapeCast ⟨4, ![8, 1, 128, 128]⟩ (mulf (addf lo hi) c₁) h1⟩,
         ⟨⟨4, ![8, 1, 128, 128]⟩, shapeCast ⟨4, ![8, 1, 128, 128]⟩ (mulf (subf lo hi) c₂) h1⟩] hc) hs (ix3 d h w)
      = depthMerged z k b (⟨16 * t.val + d.val, by omega⟩ : Fin 128) h w := by
  rw [interleave3_depth]
  unfold depthMerged
  have hp : (16 * t.val + d.val) % 2 = d.val % 2 := by omega
  have hq : (16 * t.val + d.val) / 2 = 8 * t.val + d.val / 2 := by omega
  have e : (⟨(16 * t.val + d.val) / 2, by omega⟩ : Fin 64) = ⟨8 * t.val + d.val / 2, by omega⟩ := Fin.ext hq
  show _ = step (16 * t.val + d.val) (z (ix5 b _ (⟨(16 * t.val + d.val) / 2, _⟩ : Fin 64) h w)) (z (ix5 b _ (⟨(16 * t.val + d.val) / 2, _⟩ : Fin 64) h w))
  rw [e]
  split
  · rename_i h0
    rw [step_even (by omega), mulf_apply, addf_apply, hlo, hhi, hc₁]
  · rename_i h0
    rw [step_odd (by omega), mulf_apply, subf_apply, hlo, hhi, hc₂]

/-- The kernel's step along height on the block's depth-joined planes `2 k` and `2 k + 1`. -/
theorem blk_height_step (z : (⟨5, ![4, 8, 64, 128, 128]⟩ : Shape).Idx → EReal) (k : Fin 2) (b : Fin 4) (t : Fin 8)
    (lo hi c₁ c₂ : FVec Ideal ⟨3, ![16, 128, 128]⟩ .f32)
    (hlo : ∀ (d : Fin 16) (hh w : Fin 128), lo (ix3 d hh w) = depthMerged z ⟨2 * k.val, by omega⟩ b (⟨16 * t.val + d.val, by omega⟩ : Fin 128) hh w)
    (hhi : ∀ (d : Fin 16) (hh w : Fin 128), hi (ix3 d hh w) = depthMerged z ⟨2 * k.val + 1, by omega⟩ b (⟨16 * t.val + d.val, by omega⟩ : Fin 128) hh w)
    (hc₁ : ∀ i, c₁ i = c) (hc₂ : ∀ i, c₂ i = c)
    (h1 : (⟨3, ![16, 128, 128]⟩ : Shape).ShapeCasts ⟨4, ![16, 128, 1, 128]⟩)
    (hc : Shape.Concatenates [(⟨4, ![16, 128, 1, 128]⟩ : Shape), ⟨4, ![16, 128, 1, 128]⟩] ⟨4, ![16, 128, 2, 128]⟩ 2)
    (hs : (⟨4, ![16, 128, 2, 128]⟩ : Shape).ShapeCasts ⟨3, ![16, 256, 128]⟩)
    (d : Fin 16) (h : Fin 256) (w : Fin 128) :
    shapeCast ⟨3, ![16, 256, 128]⟩ (concatenate ⟨4, ![16, 128, 2, 128]⟩ 2
        [⟨⟨4, ![16, 128, 1, 128]⟩, shapeCast ⟨4, ![16, 128, 1, 128]⟩ (mulf (addf lo hi) c₁) h1⟩,
         ⟨⟨4, ![16, 128, 1, 128]⟩, shapeCast ⟨4, ![16, 128, 1, 128]⟩ (mulf (subf lo hi) c₂) h1⟩] hc) hs (ix3 d h w)
      = heightMerged z k b (⟨16 * t.val + d.val, by omega⟩ : Fin 128) h w := by
  rw [interleave3_height]
  unfold heightMerged
  split
  · rename_i h0
    rw [step_even h0, mulf_apply, addf_apply, hlo, hhi, hc₁]
  · rename_i h0
    rw [step_odd h0, mulf_apply, subf_apply, hlo, hhi, hc₂]

end Cert.Haar

end
-- ==== Proof.RefValue.lean ====
/-
  The reference's two arrays before its width step are the specification's: its stage 57 is `wLow` of the
  argument and its stage 67 is `wHigh`. Each of the four depth steps is `ref_depth_step` on two slices of the
  argument (`ref_band`), each of the two height steps `ref_height_step` on two of those results; the scale is the
  same word splat from a rank-0 constant every time (`scale_bcast`).
-/
import proofs.«162395_j66924180407100_1_alg».proof.Proof.RefRead
import proofs.«162395_j66924180407100_1_alg».proof.Proof.Steps

noncomputable section

namespace Cert.Haar.Ref

open Cert.ReferenceIdeal Cert.ReferenceIdeal.ReadP Idealize.ShloMosaic Idealize.ShloMosaic.ValueIdx Cert.Haar

variable (z : (⟨S4x8x64x128x128, .f32⟩ : BufTy).Contents (Elt Ideal))

/-- Bands 0 and 4 joined along depth. -/
theorem depth04 (b : Fin 4) (u : Fin 1) (d : Fin 128) (h w : Fin 128) :
    val_main_v17 (F := Ideal) z (ix5 b u d h w) = depthMerged z 0 b d h w := by
  unfold val_main_v17 val_main_v16 val_main_v14 val_main_v15 val_main_v10 val_main_v13 val_main_v8 val_main_v11
  exact ref_depth_step z 0 (val_main_v0 z) (val_main_v4 z) (val_main_v9 (F := Ideal)) (val_main_v12 (F := Ideal))
    (fun b u dd h w => ref_band z 0 _ rfl _ b u dd h w) (fun b u dd h w => ref_band z 4 _ rfl _ b u dd h w)
    (fun i => scale_bcast _ _ i) (fun i => scale_bcast _ _ i) _ _ _ b u d h w

/-- Bands 1 and 5 joined along depth. -/
theorem depth15 (b : Fin 4) (u : Fin 1) (d : Fin 128) (h w : Fin 128) :
    val_main_v27 (F := Ideal) z (ix5 b u d h w) = depthMerged z 1 b d h w := by
  unfold val_main_v27 val_main_v26 val_main_v24 val_main_v25 val_main_v20 val_main_v23 val_main_v18 val_main_v21
  exact ref_depth_step z 1 (val_main_v1 z) (val_main_v5 z) (val_main_v19 (F := Ideal)) (val_main_v22 (F := Ideal))
    (fun b u dd h w => ref_band z 1 _ rfl _ b u dd h w) (fun b u dd h w => ref_band z 5 _ rfl _ b u dd h w)
    (fun i => scale_bcast _ _ i) (fun i => scale_bcast _ _ i) _ _ _ b u d h w

/-- Bands 2 and 6 joined along depth. -/
theorem depth26 (b : Fin 4) (u : Fin 1) (d : Fin 128) (h w : Fin 128) :
    val_main_v37 (F := Ideal) z (ix5 b u d h w) = depthMerged z 2 b d h w := by
  unfold val_main_v37 val_main_v36 val_main_v34 val_main_v35 val_main_v30 val_main_v33 val_main_v28 val_main_v31
  exact ref_depth_step z 2 (val_main_v2 z) (val_main_v6 z) (val_main_v29 (F := Ideal)) (val_main_v32 (F := Ideal))
    (fun b u dd h w => ref_band z 2 _ rfl _ b u dd h w) (fun b u dd h w => ref_band z 6 _ rfl _ b u dd h w)
    (fun i => scale_bcast _ _ i) (fun i => scale_bcast _ _ i) _ _ _ b u d h w

/-- Bands 3 and 7 joined along depth. -/
theorem depth37 (b : Fin 4) (u : Fin 1) (d : Fin 128) (h w : Fin 128) :
    val_main_v47 (F := Ideal) z (ix5 b u d h w) = depthMerged z 3 b d h w := by
  unfold val_main_v47 val_main_v46 val_main_v44 val_main_v45 val_main_v40 val_main_v43 val_main_v38 val_main_v41
  exact ref_depth_step z 3 (val_main_v3 z) (val_main_v7 z) (val_main_v39 (F := Ideal)) (val_main_v42 (F := Ideal))
    (fun b u dd h w => ref_band z 3 _ rfl _ b u dd h w) (fun b u dd h w => ref_band z 7 _ rfl _ b u dd h w)
    (fun i => scale_bcast _ _ i) (fun i => scale_bcast _ _ i) _ _ _ b u d h w

/-- The reference's low half before the width step is `wLow`. -/
theorem low_eq : val_main_v57 (F := Ideal) z = wLow z := by
  funext i
  obtain ⟨b, u, d, h, w, rfl⟩ : ∃ (b : Fin 4) (u : Fin 1) (d : Fin 128) (h : Fin 256) (w : Fin 128), i = ix5 b u d h w :=
    ⟨i 0, i 1, i 2, i 3, i 4, eq_ix5 i⟩
  show _ = heightMerged z 0 b d h w
  unfold val_main_v57 val_main_v56 val_main_v54 val_main_v55 val_main_v50 val_main_v53 val_main_v48 val_main_v51
  exact ref_height_step z 0 (val_main_v17 z) (val_main_v27 z) (val_main_v49 (F := Ideal)) (val_main_v52 (F := Ideal))
    (fun b u d hh w => depth04 z b u d hh w) (fun b u d hh w => depth15 z b u d hh w)
    (fun i => scale_bcast _ _ i) (fun i => scale_bcast _ _ i) _ _ _ b u d h w

/-- The reference's high half before the width step is `wHigh`. -/
theorem high_eq : val_main_v67 (F := Ideal) z = wHigh z := by
  funext i
  obtain ⟨b, u, d, h, w, rfl⟩ : ∃ (b : Fin 4) (u : Fin 1) (d : Fin 128) (h : Fin 256) (w : Fin 128), i = ix5 b u d h w :=
    ⟨i 0, i 1, i 2, i 3, i 4, eq_ix5 i⟩
  show _ = heightMerged z 1 b d h w
  unfold val_main_v67 val_main_v66 val_main_v64 val_main_v65 val_main_v60 val_main_v63 val_main_v58 val_main_v61
  exact ref_height_step z 1 (val_main_v37 z) (val_main_v47 z) (val_main_v59 (F := Ideal)) (val_main_v62 (F := Ideal))
    (fun b u d hh w => depth26 z b u d hh w) (fun b u d hh w => depth37 z b u d hh w)
    (fun i => scale_bcast _ _ i) (fun i => scale_bcast _ _ i) _ _ _ b u d h w

/-- The reference's result is the width step on the two halves: its last ten operations are that text. -/
theorem result_eq : val_main_v77 (F := Ideal) z = widthStep (wLow z) (wHigh z) := by
  rw [← low_eq, ← high_eq]
  unfold val_main_v77 val_main_v76 val_main_v74 val_main_v75 val_main_v70 val_main_v73 val_main_v68 val_main_v71
    val_main_v69 val_main_v72 val_main_cst_11 val_main_cst_12 widthStep
  rfl

end Cert.Haar.Ref

end
-- ==== Proof.RefRun.lean ====
/-
  The reference's run, read stretch by stretch. Its @main is a straight line of 92 host operations: eight slices of
  the argument `z`, then seven stretches of twelve operations, each one inverse Haar step (sum, difference, the two
  scalings, the stacking on a new axis and the flattening). After each stretch the buffers that later stretches
  still read hold their stages of `z` — the stage functions `val_main_vN` that name each operation's value — and the
  argument is untouched: eight invariants, each carried over one stretch by evaluating that stretch alone. The whole
  line is the stretches end to end, so after it the result buffer holds the last stage of `z`.
-/
import proofs.«162395_j66924180407100_1_alg».proof.Proof.RefRead
import Idealize.ShloMosaic.Lib.Pipeline.Frame

set_option maxRecDepth 8192

noncomputable section

namespace Cert.Haar.RefRun

open Cert.ReferenceIdeal Cert.ReferenceIdeal.Gen Cert.ReferenceIdeal.RunP Cert.ReferenceIdeal.ReadP
open Idealize.ShloMosaic Idealize.ShloMosaic.TcCoe Idealize.SL.Sem Idealize.ShloMosaic.StableHlo

variable {F : FTy → Type} [FloatOps F]
variable (z : (⟨S4x8x64x128x128, .f32⟩ : BufTy).Contents (Elt F))

/-- Before the first operation: the argument buffer holds `z`. -/
def Inv0 (W : Valuation τ sig (Elt F)) : Prop := W (Proc.devRef .tc main_arg0) = z

/-- After the eight slices: the buffers still to be read hold their stages of `z`, the argument is as it was. -/
def InvS (W : Valuation τ sig (Elt F)) : Prop :=
  W (Proc.devRef .tc main_v0) = val_main_v0 (F := F) z
  ∧ W (Proc.devRef .tc main_v1) = val_main_v1 (F := F) z
  ∧ W (Proc.devRef .tc main_v2) = val_main_v2 (F := F) z
  ∧ W (Proc.devRef .tc main_v3) = val_main_v3 (F := F) z
  ∧ W (Proc.devRef .tc main_v4) = val_main_v4 (F := F) z
  ∧ W (Proc.devRef .tc main_v5) = val_main_v5 (F := F) z
  ∧ W (Proc.devRef .tc main_v6) = val_main_v6 (F := F) z
  ∧ W (Proc.devRef .tc main_v7) = val_main_v7 (F := F) z
  ∧ W (Proc.devRef .tc main_arg0) = z

/-- After bands 0 and 4 joined along depth: the buffers still to be read hold their stages of `z`, the argument is as it was. -/
def InvA (W : Valuation τ sig (Elt F)) : Prop :=
  W (Proc.devRef .tc main_v17) = val_main_v17 (F := F) z
  ∧ W (Proc.devRef .tc main_v1) = val_main_v1 (F := F) z
  ∧ W (Proc.devRef .tc main_v5) = val_main_v5 (F := F) z
  ∧ W (Proc.devRef .tc main_v2) = val_main_v2 (F := F) z
  ∧ W (Proc.devRef .tc main_v6) = val_main_v6 (F := F) z
  ∧ W (Proc.devRef .tc main_v3) = val_main_v3 (F := F) z
  ∧ W (Proc.devRef .tc main_v7) = val_main_v7 (F := F) z
  ∧ W (Proc.devRef .tc main_arg0) = z

/-- After bands 1 and 5 joined along depth: the buffers still to be read hold their stages of `z`, the argument is as it was. -/
def InvB (W : Valuation τ sig (Elt F)) : Prop :=
  W (Proc.devRef .tc main_v17) = val_main_v17 (F := F) z
  ∧ W (Proc.devRef .tc main_v27) = val_main_v27 (F := F) z
  ∧ W (Proc.devRef .tc main_v2) = val_main_v2 (F := F) z
  ∧ W (Proc.devRef .tc main_v6) = val_main_v6 (F := F) z
  ∧ W (Proc.devRef .tc main_v3) = val_main_v3 (F := F) z
  ∧ W (Proc.devRef .tc main_v7) = val_main_v7 (F := F) z
  ∧ W (Proc.devRef .tc main_arg0) = z

/-- After bands 2 and 6 joined along depth: the buffers still to be read hold their stages of `z`, the argument is as it was. -/
def InvC (W : Valuation τ sig (Elt F)) : Prop :=
  W (Proc.devRef .tc main_v17) = val_main_v17 (F := F) z
  ∧ W (Proc.devRef .tc main_v27) = val_main_v27 (F := F) z
  ∧ W (Proc.devRef .tc main_v37) = val_main_v37 (F := F) z
  ∧ W (Proc.devRef .tc main_v3) = val_main_v3 (F := F) z
  ∧ W (Proc.devRef .tc main_v7) = val_main_v7 (F := F) z
  ∧ W (Proc.devRef .tc main_arg0) = z

/-- After bands 3 and 7 joined along depth: the buffers still to be read hold their stages of `z`, the argument is as it was. -/
def InvD (W : Valuation τ sig (Elt F)) : Prop :=
  W (Proc.devRef .tc main_v17) = val_main_v17 (F := F) z
  ∧ W (Proc.devRef .tc main_v27) = val_main_v27 (F := F) z
  ∧ W (Proc.devRef .tc main_v37) = val_main_v37 (F := F) z
  ∧ W (Proc.devRef .tc main_v47) = val_main_v47 (F := F) z
  ∧ W (Proc.devRef .tc main_arg0) = z

/-- After the first two depth-joined arrays joined along height: the buffers still to be read hold their stages of `z`, the argument is as it was. -/
def InvE (W : Valuation τ sig (Elt F)) : Prop :=
  W (Proc.devRef .tc main_v57) = val_main_v57 (F := F) z
  ∧ W (Proc.devRef .tc main_v37) = val_main_v37 (F := F) z
  ∧ W (Proc.devRef .tc main_v47) = val_main_v47 (F := F) z
  ∧ W (Proc.devRef .tc main_arg0) = z

/-- After the last two depth-joined arrays joined along height: the buffers still to be read hold their stages of `z`, the argument is as it was. -/
def InvF (W : Valuation τ sig (Elt F)) : Prop :=
  W (Proc.devRef .tc main_v57) = val_main_v57 (F := F) z
  ∧ W (Proc.devRef .tc main_v67) = val_main_v67 (F := F) z
  ∧ W (Proc.devRef .tc main_arg0) = z

/-- After the two halves joined along width: the buffers still to be read hold their stages of `z`, the argument is as it was. -/
def InvG (W : Valuation τ sig (Elt F)) : Prop :=
  W (Proc.devRef .tc main_v77) = val_main_v77 (F := F) z
  ∧ W (Proc.devRef .tc main_arg0) = z

/-- The stretch that computes the eight slices takes the invariant before it to the invariant after it. -/
theorem stepS (W : Valuation τ sig (Elt F)) (h : Inv0 z W) : InvS z (after opsS W) := by
  have ha : W (Proc.devRef .tc main_arg0) = z := h
  refine ⟨?_, ?_, ?_, ?_, ?_, ?_, ?_, ?_, ?_⟩
  · unfold opsS; after_results; rw [ha]; rfl
  · unfold opsS; after_results; rw [ha]; rfl
  · unfold opsS; after_results; rw [ha]; rfl
  · unfold opsS; after_results; rw [ha]; rfl
  · unfold opsS; after_results; rw [ha]; rfl
  · unfold opsS; after_results; rw [ha]; rfl
  · unfold opsS; after_results; rw [ha]; rfl
  · unfold opsS; after_results; rw [ha]; rfl
  · unfold opsS; after_results; exact ha

/-- The stretch that computes bands 0 and 4 joined along depth takes the invariant before it to the invariant after it. -/
theorem stepA (W : Valuation τ sig (Elt F)) (h : InvS z W) : InvA z (after opsA W) := by
  obtain ⟨h0, h1, h2, h3, h4, h5, h6, h7, ha⟩ := h
  refine ⟨?_, ?_, ?_, ?_, ?_, ?_, ?_, ?_⟩
  · unfold opsA; after_results; rw [h0, h4]; rfl
  · unfold opsA; after_results; exact h1
  · unfold opsA; after_results; exact h5
  · unfold opsA; after_results; exact h2
  · unfold opsA; after_results; exact h6
  · unfold opsA; after_results; exact h3
  · unfold opsA; after_results; exact h7
  · unfold opsA; after_results; exact ha

/-- The stretch that computes bands 1 and 5 joined along depth takes the invariant before it to the invariant after it. -/
theorem stepB (W : Valuation τ sig (Elt F)) (h : InvA z W) : InvB z (after opsB W) := by
  obtain ⟨h17, h1, h5, h2, h6, h3, h7, ha⟩ := h
  refine ⟨?_, ?_, ?_, ?_, ?_, ?_, ?_⟩
  · unfold opsB; after_results; exact h17
  · unfold opsB; after_results; rw [h1, h5]; rfl
  · unfold opsB; after_results; exact h2
  · unfold opsB; after_results; exact h6
  · unfold opsB; after_results; exact h3
  · unfold opsB; after_results; exact h7
  · unfold opsB; after_results; exact ha

/-- The stretch that computes bands 2 and 6 joined along depth takes the invariant before it to the invariant after it. -/
theorem stepC (W : Valuation τ sig (Elt F)) (h : InvB z W) : InvC z (after opsC W) := by
  obtain ⟨h17, h27, h2, h6, h3, h7, ha⟩ := h
  refine ⟨?_, ?_, ?_, ?_, ?_, ?_⟩
  · unfold opsC; after_results; exact h17
  · unfold opsC; after_results; exact h27
  · unfold opsC; after_results; rw [h2, h6]; rfl
  · unfold opsC; after_results; exact h3
  · unfold opsC; after_results; exact h7
  · unfold opsC; after_results; exact ha

/-- The stretch that computes bands 3 and 7 joined along depth takes the invariant before it to the invariant after it. -/
theorem stepD (W : Valuation τ sig (Elt F)) (h : InvC z W) : InvD z (after opsD W) := by
  obtain ⟨h17, h27, h37, h3, h7, ha⟩ := h
  refine ⟨?_, ?_, ?_, ?_, ?_⟩
  · unfold opsD; after_results; exact h17
  · unfold opsD; after_results; exact h27
  · unfold opsD; after_results; exact h37
  · unfold opsD; after_results; rw [h3, h7]; rfl
  · unfold opsD; after_results; exact ha

/-- The stretch that computes the first two depth-joined arrays joined along height takes the invariant before it to the invariant after it. -/
theorem stepE (W : Valuation τ sig (Elt F)) (h : InvD z W) : InvE z (after opsE W) := by
  obtain ⟨h17, h27, h37, h47, ha⟩ := h
  refine ⟨?_, ?_, ?_, ?_⟩
  · unfold opsE; after_results; rw [h17, h27]; rfl
  · unfold opsE; after_results; exact h37
  · unfold opsE; after_results; exact h47
  · unfold opsE; after_results; exact ha

/-- The stretch that computes the last two depth-joined arrays joined along height takes the invariant before it to the invariant after it. -/
theorem stepF (W : Valuation τ sig (Elt F)) (h : InvE z W) : InvF z (after opsF W) := by
  obtain ⟨h57, h37, h47, ha⟩ := h
  refine ⟨?_, ?_, ?_⟩
  · unfold opsF; after_results; exact h57
  · unfold opsF; after_results; rw [h37, h47]; rfl
  · unfold opsF; after_results; exact ha

/-- The stretch that computes the two halves joined along width takes the invariant before it to the invariant after it. -/
theorem stepG (W : Valuation τ sig (Elt F)) (h : InvF z W) : InvG z (after opsG W) := by
  obtain ⟨h57, h67, ha⟩ := h
  refine ⟨?_, ?_⟩
  · unfold opsG; after_results; rw [h57, h67]; rfl
  · unfold opsG; after_results; exact ha

/-- After the whole line, from any contents `V`: the result buffer holds the last stage of the argument's contents,
    and the argument buffer is as it was. -/
theorem after_ops (V : Valuation τ sig (Elt F)) :
    after ops V (Proc.devRef .tc main_v77) = val_main_v77 (F := F) (V (Proc.devRef .tc main_arg0))
    ∧ after ops V (Proc.devRef .tc main_arg0) = V (Proc.devRef .tc main_arg0) := by
  rw [ops_split, StableHlo.after_append, StableHlo.after_append, StableHlo.after_append, StableHlo.after_append,
    StableHlo.after_append, StableHlo.after_append, StableHlo.after_append]
  exact stepG _ _ (stepF _ _ (stepE _ _ (stepD _ _ (stepC _ _ (stepB _ _ (stepA _ _ (stepS _ V rfl)))))))

/-- On every device, from any memory with zero counters: every weakly fair execution of @main terminates with the
    result at the last stage of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77) = val_main_v77 (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v77).trans (after_ops (launchContents m c)).1,
      (h c main_arg0).trans (after_ops (launchContents m c)).2⟩)
    (run_seq scopedRefs_eq scopedSems_eq defs main (fun _ => ops) main_eq (fun _ => ops_sub) m ρ)

end Cert.Haar.RefRun

end
-- ==== Proof.KernelBlock.lean ====
/-
  What the kernel body leaves in its two output blocks, read at an index. Grid point (b, t) hands the body the
  block `x` of `z` whose band `k`, depth `dd` is `z` at batch `b`, band `k`, depth `8 t + dd`. The body loads the
  eight bands (`blk_band`), joins the pairs (0,4), (1,5) along depth and those two along height for the first
  output, and the pairs (2,6), (3,7) likewise for the second (`blk_depth_step`, `blk_height_step`), and stores
  each result whole. So the first block at (d, h, w) is `heightMerged z 0` at depth `16 t + d`, and the second is
  `heightMerged z 1` there.
-/
import proofs.«162395_j66924180407100_1_alg».proof.Proof.Gen.KernelIdeal.Frame
import proofs.«162395_j66924180407100_1_alg».proof.Proof.Steps

noncomputable section

namespace Cert.Haar.Blk

open Cert.KernelIdeal Cert.KernelIdeal.Gen Idealize.ShloMosaic Idealize.ShloMosaic.ValueIdx Cert.Haar

theorem zero5 : (![0, 0, 0, 0, 0] : Fin 5 → Nat) = fun _ => 0 := funext fun a => by fin_cases a <;> rfl

variable (z : (⟨5, ![4, 8, 64, 128, 128]⟩ : Shape).Idx → EReal) (b : Fin 4) (t : Fin 8)
  (x : Vec Ideal S1x8x8x128x128 .f32)

/-- The first output block is the low half at the block's place in the array. -/
theorem out_low
    (hx : ∀ (k : Fin 8) (dd : Fin 8) (h w : Fin 128), x (ix5 0 k dd h w) = z (ix5 b k (⟨8 * t.val + dd.val, by omega⟩ : Fin 64) h w))
    (u0 u1 : Fin 1) (d : Fin 16) (h : Fin 256) (w : Fin 128) :
    out0_1 (F := Ideal) x (ix5 u0 u1 d h w) = heightMerged z 0 b (⟨16 * t.val + d.val, by omega⟩ : Fin 128) h w := by
  have hu0 : u0.val = 0 := by omega
  have hu1 : u1.val = 0 := by omega
  unfold out0_1
  rw [View.canon_unit_zero zero5]
  unfold k0_pay1 k0_pay14 k0_pay11 k0_pay3 k0_pay4 k0_pay7 k0_pay8
  dsimp only
  refine (shapeCast_apply _ _ (ix5 u0 u1 d h w) (ix3 d h w) ?_).trans ?_
  · rw [Shape.rowMajor_val_three, Shape.rowMajor_val_five]
    show (d.val * 256 + h.val) * 128 + w.val = ((((u0.val * 1 + u1.val) * 16 + d.val) * 256 + h.val) * 128 + w.val)
    rw [hu0, hu1]; omega
  refine blk_height_step z 0 b t _ _ _ _ ?_ ?_ (fun _ => rfl) (fun _ => rfl) _ _ _ d h w
  · intro d hh w
    refine blk_depth_step z 0 b t _ _ _ _ ?_ ?_ (fun _ => rfl) (fun _ => rfl) _ _ _ d hh w
    · intro dd h w; exact (blk_band x 0 _ rfl _ _ dd h w).trans (hx 0 dd h w)
    · intro dd h w; exact (blk_band x 4 _ rfl _ _ dd h w).trans (hx 4 dd h w)
  · intro d hh w
    refine blk_depth_step z 1 b t _ _ _ _ ?_ ?_ (fun _ => rfl) (fun _ => rfl) _ _ _ d hh w
    · intro dd h w; exact (blk_band x 1 _ rfl _ _ dd h w).trans (hx 1 dd h w)
    · intro dd h w; exact (blk_band x 5 _ rfl _ _ dd h w).trans (hx 5 dd h w)

/-- The second output block is the high half at the block's place in the array. -/
theorem out_high
    (hx : ∀ (k : Fin 8) (dd : Fin 8) (h w : Fin 128), x (ix5 0 k dd h w) = z (ix5 b k (⟨8 * t.val + dd.val, by omega⟩ : Fin 64) h w))
    (u0 u1 : Fin 1) (d : Fin 16) (h : Fin 256) (w : Fin 128) :
    out0_2 (F := Ideal) x (ix5 u0 u1 d h w) = heightMerged z 1 b (⟨16 * t.val + d.val, by omega⟩ : Fin 128) h w := by
  have hu0 : u0.val = 0 := by omega
  have hu1 : u1.val = 0 := by omega
  unfold out0_2
  rw [View.canon_unit_zero zero5]
  unfold k0_pay2 k0_pay15 k0_pay12 k0_pay13 k0_pay5 k0_pay6 k0_pay9 k0_pay10
  dsimp only
  refine (shapeCast_apply _ _ (ix5 u0 u1 d h w) (ix3 d h w) ?_).trans ?_
  · rw [Shape.rowMajor_val_three, Shape.rowMajor_val_five]
    show (d.val * 256 + h.val) * 128 + w.val = ((((u0.val * 1 + u1.val) * 16 + d.val) * 256 + h.val) * 128 + w.val)
    rw [hu0, hu1]; omega
  refine blk_height_step z 1 b t _ _ _ _ ?_ ?_ (fun _ => rfl) (fun _ => rfl) _ _ _ d h w
  · intro d hh w
    refine blk_depth_step z 2 b t _ _ _ _ ?_ ?_ (fun _ => rfl) (fun _ => rfl) _ _ _ d hh w
    · intro dd h w; exact (blk_band x 2 _ rfl _ _ dd h w).trans (hx 2 dd h w)
    · intro dd h w; exact (blk_band x 6 _ rfl _ _ dd h w).trans (hx 6 dd h w)
  · intro d hh w
    refine blk_depth_step z 3 b t _ _ _ _ ?_ ?_ (fun _ => rfl) (fun _ => rfl) _ _ _ d hh w
    · intro dd h w; exact (blk_band x 3 _ rfl _ _ dd h w).trans (hx 3 dd h w)
    · intro dd h w; exact (blk_band x 7 _ rfl _ _ dd h w).trans (hx 7 dd h w)

/-- The same at any index of the block. -/
theorem out_low'
    (hx : ∀ (k : Fin 8) (dd : Fin 8) (h w : Fin 128), x (ix5 0 k dd h w) = z (ix5 b k (⟨8 * t.val + dd.val, by omega⟩ : Fin 64) h w))
    (y : S1x1x16x256x128.Idx) :
    out0_1 (F := Ideal) x y = heightMerged z 0 b (⟨16 * t.val + (y 2).val, by have h2 : (y 2).val < 16 := (y 2).isLt; omega⟩ : Fin 128) (y 3) (y 4) := by
  exact (congrArg (out0_1 (F := Ideal) x) (eq_ix5 y)).trans (out_low z b t x hx (y 0) (y 1) (y 2) (y 3) (y 4))

theorem out_high'
    (hx : ∀ (k : Fin 8) (dd : Fin 8) (h w : Fin 128), x (ix5 0 k dd h w) = z (ix5 b k (⟨8 * t.val + dd.val, by omega⟩ : Fin 64) h w))
    (y : S1x1x16x256x128.Idx) :
    out0_2 (F := Ideal) x y = heightMerged z 1 b (⟨16 * t.val + (y 2).val, by have h2 : (y 2).val < 16 := (y 2).isLt; omega⟩ : Fin 128) (y 3) (y 4) := by
  exact (congrArg (out0_2 (F := Ideal) x) (eq_ix5 y)).trans (out_high z b t x hx (y 0) (y 1) (y 2) (y 3) (y 4))

end Cert.Haar.Blk

end
-- ==== Proof.KernelArray.lean ====
/-
  From the kernel's blocks to its two output arrays. The grid is 4 × 8: point (b, t) is handed the block of `z` at
  batch `b`, all eight bands, depths `8 t … 8 t + 7`, and writes back, through each output window, the block at
  batch `b`, depths `16 t … 16 t + 15`, whole in height and width. What it writes back is that block of `wLow z`
  (of `wHigh z` through the second window), by the block lemmas; the 32 blocks tile each array; so after the run
  the first output array is `wLow z` and the second is `wHigh z`.
-/
import proofs.«162395_j66924180407100_1_alg».proof.Proof.KernelBlock
import Idealize.ShloMosaic.Lib.Pipeline.Value

set_option maxRecDepth 16384

noncomputable section

namespace Cert.Haar.Arr

open Cert.KernelIdeal Cert.KernelIdeal.Gen Idealize.ShloMosaic Idealize.ShloMosaic.TcCoe Idealize.ShloMosaic.ValueIdx Idealize.SL.Sem Cert.Haar
open Idealize.ShloMosaic.Pipeline (Dat)

variable (m : (ℓ : Loc nD τ sig) → Buf (Elt Ideal) ℓ)

/-- The printed index maps, decided over the grid: all three windows move together, at block index (b, 0, t, 0, 0). -/
theorem idx_facts : ∀ t : Fin cfg0.N,
    win0_0.index t (0 : Fin 5) = win0_1.index t (0 : Fin 5) ∧ win0_0.index t (1 : Fin 5) = 0
    ∧ win0_0.index t (2 : Fin 5) = win0_1.index t (2 : Fin 5) ∧ win0_0.index t (3 : Fin 5) = 0 ∧ win0_0.index t (4 : Fin 5) = 0
    ∧ win0_2.index t (0 : Fin 5) = win0_1.index t (0 : Fin 5) ∧ win0_2.index t (1 : Fin 5) = 0
    ∧ win0_2.index t (2 : Fin 5) = win0_1.index t (2 : Fin 5) ∧ win0_2.index t (3 : Fin 5) = 0 ∧ win0_2.index t (4 : Fin 5) = 0
    ∧ win0_1.index t (1 : Fin 5) = 0 ∧ win0_1.index t (3 : Fin 5) = 0 ∧ win0_1.index t (4 : Fin 5) = 0 :=
  (by decide +kernel : ∀ t : Fin grid0.N, _)

theorem idx_batch : ∀ t : Fin cfg0.N, win0_1.index t (0 : Fin 5) < 4 := (by decide +kernel : ∀ t : Fin grid0.N, _)
theorem idx_depth : ∀ t : Fin cfg0.N, win0_1.index t (2 : Fin 5) < 8 := (by decide +kernel : ∀ t : Fin grid0.N, _)

/-- Every (batch, depth block) is some point's. -/
theorem idx_onto : ∀ (q0 : Fin 4) (q2 : Fin 8), ∃ t : Fin cfg0.N, win0_1.index t = ![q0.val, 0, q2.val, 0, 0] :=
  (by decide +kernel : ∀ (q0 : Fin 4) (q2 : Fin 8), ∃ t : Fin grid0.N, win0_1.index t = ![q0.val, 0, q2.val, 0, 0])

/-- The batch and the depth block of grid point `t`. -/
abbrev bOf (t : Fin cfg0.N) : Fin 4 := ⟨win0_1.index t (0 : Fin 5), idx_batch t⟩
abbrev tOf (t : Fin cfg0.N) : Fin 8 := ⟨win0_1.index t (2 : Fin 5), idx_depth t⟩

/-- WHAT POINT `t` WRITES BACK through output window 1 is its block of `wLow` of the argument. -/
theorem flushed_low (c : Dev nD) (t : Fin cfg0.N) :
    (dats m 0 c).flushed 1 t = ((cfg0.win 1).blk t).view.read (Elt Ideal) (wLow (V m c main_arg0)) := by
  show (cfg0.win 1).cut (grid0.coords t) ((dats m 0 c).after 1 t) = _
  rw [after0_1]
  obtain ⟨e00, e01, e02, e03, e04, e20, e21, e22, e23, e24, e11, e13, e14⟩ := idx_facts t
  funext y
  have hy0 : (y 0).val < 1 := (y 0).isLt
  have hy1 : (y 1).val < 1 := (y 1).isLt
  have hy2 : (y 2).val < 16 := (y 2).isLt
  have hy3 : (y 3).val < 256 := (y 3).isLt
  have hy4 : (y 4).val < 128 := (y 4).isLt
  show out0_1 (iblk m c 0 t) y = wLow (V m c main_arg0) (((cfg0.win 1).blk t).view.emb y)
  refine (Blk.out_low' (V m c main_arg0) (bOf t) (tOf t) (iblk m c 0 t) ?_ y).trans ?_
  · intro k dd h w
    show V m c main_arg0 (((cfg0.win 0).blk t).view.emb (ix5 0 k dd h w)) = _
    refine congrArg (V m c main_arg0) (funext fun a => Fin.ext ?_)
    match a with
    | ⟨0, _⟩ => show win0_0.index t (0 : Fin 5) * 1 + 1 * 0 = win0_1.index t (0 : Fin 5); omega
    | ⟨1, _⟩ => show win0_0.index t (1 : Fin 5) * 8 + 1 * k.val = k.val; omega
    | ⟨2, _⟩ => show win0_0.index t (2 : Fin 5) * 8 + 1 * dd.val = 8 * win0_1.index t (2 : Fin 5) + dd.val; omega
    | ⟨3, _⟩ => show win0_0.index t (3 : Fin 5) * 128 + 1 * h.val = h.val; omega
    | ⟨4, _⟩ => show win0_0.index t (4 : Fin 5) * 128 + 1 * w.val = w.val; omega
  · show heightMerged _ 0 _ _ _ _ = heightMerged _ 0 _ _ _ _
    congr 1
    · exact Fin.ext (by show win0_1.index t (0 : Fin 5) = win0_1.index t (0 : Fin 5) * 1 + 1 * (y 0).val; omega)
    · exact Fin.ext (by show 16 * win0_1.index t (2 : Fin 5) + (y 2).val = win0_1.index t (2 : Fin 5) * 16 + 1 * (y 2).val; omega)
    · exact Fin.ext (by show (y 3).val = win0_1.index t (3 : Fin 5) * 256 + 1 * (y 3).val; omega)
    · exact Fin.ext (by show (y 4).val = win0_1.index t (4 : Fin 5) * 128 + 1 * (y 4).val; omega)

/-- An index of the array is in point `t`'s block of window 1 iff each coordinate is in the block's range. -/
theorem mem_blk_low (t : Fin cfg0.N) (i : S4x1x128x256x128.Idx) :
    i ∈ ((cfg0.win 1).blk t).view.set ↔ ∀ a : Fin 5, win0_1.index t a * S1x1x16x256x128.size a ≤ (i a).val ∧ (i a).val < win0_1.index t a * S1x1x16x256x128.size a + S1x1x16x256x128.size a := by
  show i ∈ ((View.whole main_v0_0).slice (win0_1.rect t)).set ↔ _
  rw [View.set_slice_whole, Rect.mem_set_unit]
  exact Iff.rfl

/-- Every index of the array is in some point's block: the point at batch `i 0` and depth block `i 2 / 16`. -/
theorem cover_low (i : S4x1x128x256x128.Idx) :
    ∃ t : Fin cfg0.N, (cfg0.win 1).flush t = true ∧ i ∈ ((cfg0.win 1).blk t).view.set := by
  have hi0 : (i 0).val < 4 := (i 0).isLt
  have hi1 : (i 1).val < 1 := (i 1).isLt
  have hi2 : (i 2).val < 128 := (i 2).isLt
  have hi3 : (i 3).val < 256 := (i 3).isLt
  have hi4 : (i 4).val < 128 := (i 4).isLt
  obtain ⟨t, ht⟩ := idx_onto ⟨(i 0).val, hi0⟩ ⟨(i 2).val / 16, by omega⟩
  obtain ⟨e00, e01, e02, e03, e04, e20, e21, e22, e23, e24, e11, e13, e14⟩ := idx_facts t
  have q0 : win0_1.index t (0 : Fin 5) = (i 0).val := congrFun ht 0
  have q2 : win0_1.index t (2 : Fin 5) = (i 2).val / 16 := congrFun ht 2
  refine ⟨t, flush0_1 t, ?_⟩
  rw [mem_blk_low]
  intro a
  match a with
  | ⟨0, _⟩ => show win0_1.index t (0 : Fin 5) * 1 ≤ (i 0).val ∧ (i 0).val < win0_1.index t (0 : Fin 5) * 1 + 1; omega
  | ⟨1, _⟩ => show win0_1.index t (1 : Fin 5) * 1 ≤ (i 1).val ∧ (i 1).val < win0_1.index t (1 : Fin 5) * 1 + 1; omega
  | ⟨2, _⟩ => show win0_1.index t (2 : Fin 5) * 16 ≤ (i 2).val ∧ (i 2).val < win0_1.index t (2 : Fin 5) * 16 + 16; omega
  | ⟨3, _⟩ => show win0_1.index t (3 : Fin 5) * 256 ≤ (i 3).val ∧ (i 3).val < win0_1.index t (3 : Fin 5) * 256 + 256; omega
  | ⟨4, _⟩ => show win0_1.index t (4 : Fin 5) * 128 ≤ (i 4).val ∧ (i 4).val < win0_1.index t (4 : Fin 5) * 128 + 128; omega

/-- THE ARRAY of output window 1 after the run is `wLow` of the argument. -/
theorem final_low (c : Dev nD) : (dats m 0 c).arrAt 1 cfg0.N = wLow (V m c main_arg0) :=
  (dats m 0 c).arrAt_eq_of_cover 1 _ (fun t _ => flushed_low m c t) cover_low

/-- WHAT POINT `t` WRITES BACK through output window 2 is its block of `wHigh` of the argument. -/
theorem flushed_high (c : Dev nD) (t : Fin cfg0.N) :
    (dats m 0 c).flushed 2 t = ((cfg0.win 2).blk t).view.read (Elt Ideal) (wHigh (V m c main_arg0)) := by
  show (cfg0.win 2).cut (grid0.coords t) ((dats m 0 c).after 2 t) = _
  rw [after0_2]
  obtain ⟨e00, e01, e02, e03, e04, e20, e21, e22, e23, e24, e11, e13, e14⟩ := idx_facts t
  funext y
  have hy0 : (y 0).val < 1 := (y 0).isLt
  have hy1 : (y 1).val < 1 := (y 1).isLt
  have hy2 : (y 2).val < 16 := (y 2).isLt
  have hy3 : (y 3).val < 256 := (y 3).isLt
  have hy4 : (y 4).val < 128 := (y 4).isLt
  show out0_2 (iblk m c 0 t) y = wHigh (V m c main_arg0) (((cfg0.win 2).blk t).view.emb y)
  refine (Blk.out_high' (V m c main_arg0) (bOf t) (tOf t) (iblk m c 0 t) ?_ y).trans ?_
  · intro k dd h w
    show V m c main_arg0 (((cfg0.win 0).blk t).view.emb (ix5 0 k dd h w)) = _
    refine congrArg (V m c main_arg0) (funext fun a => Fin.ext ?_)
    match a with
    | ⟨0, _⟩ => show win0_0.index t (0 : Fin 5) * 1 + 1 * 0 = win0_1.index t (0 : Fin 5); omega
    | ⟨1, _⟩ => show win0_0.index t (1 : Fin 5) * 8 + 1 * k.val = k.val; omega
    | ⟨2, _⟩ => show win0_0.index t (2 : Fin 5) * 8 + 1 * dd.val = 8 * win0_1.index t (2 : Fin 5) + dd.val; omega
    | ⟨3, _⟩ => show win0_0.index t (3 : Fin 5) * 128 + 1 * h.val = h.val; omega
    | ⟨4, _⟩ => show win0_0.index t (4 : Fin 5) * 128 + 1 * w.val = w.val; omega
  · show heightMerged _ 1 _ _ _ _ = heightMerged _ 1 _ _ _ _
    congr 1
    · exact Fin.ext (by show win0_1.index t (0 : Fin 5) = win0_2.index t (0 : Fin 5) * 1 + 1 * (y 0).val; omega)
    · exact Fin.ext (by show 16 * win0_1.index t (2 : Fin 5) + (y 2).val = win0_2.index t (2 : Fin 5) * 16 + 1 * (y 2).val; omega)
    · exact Fin.ext (by show (y 3).val = win0_2.index t (3 : Fin 5) * 256 + 1 * (y 3).val; omega)
    · exact Fin.ext (by show (y 4).val = win0_2.index t (4 : Fin 5) * 128 + 1 * (y 4).val; omega)

/-- An index of the array is in point `t`'s block of window 2 iff each coordinate is in the block's range. -/
theorem mem_blk_high (t : Fin cfg0.N) (i : S4x1x128x256x128.Idx) :
    i ∈ ((cfg0.win 2).blk t).view.set ↔ ∀ a : Fin 5, win0_2.index t a * S1x1x16x256x128.size a ≤ (i a).val ∧ (i a).val < win0_2.index t a * S1x1x16x256x128.size a + S1x1x16x256x128.size a := by
  show i ∈ ((View.whole main_v0_1).slice (win0_2.rect t)).set ↔ _
  rw [View.set_slice_whole, Rect.mem_set_unit]
  exact Iff.rfl

/-- Every index of the array is in some point's block: the point at batch `i 0` and depth block `i 2 / 16`. -/
theorem cover_high (i : S4x1x128x256x128.Idx) :
    ∃ t : Fin cfg0.N, (cfg0.win 2).flush t = true ∧ i ∈ ((cfg0.win 2).blk t).view.set := by
  have hi0 : (i 0).val < 4 := (i 0).isLt
  have hi1 : (i 1).val < 1 := (i 1).isLt
  have hi2 : (i 2).val < 128 := (i 2).isLt
  have hi3 : (i 3).val < 256 := (i 3).isLt
  have hi4 : (i 4).val < 128 := (i 4).isLt
  obtain ⟨t, ht⟩ := idx_onto ⟨(i 0).val, hi0⟩ ⟨(i 2).val / 16, by omega⟩
  obtain ⟨e00, e01, e02, e03, e04, e20, e21, e22, e23, e24, e11, e13, e14⟩ := idx_facts t
  have q0 : win0_1.index t (0 : Fin 5) = (i 0).val := congrFun ht 0
  have q2 : win0_1.index t (2 : Fin 5) = (i 2).val / 16 := congrFun ht 2
  refine ⟨t, flush0_2 t, ?_⟩
  rw [mem_blk_high]
  intro a
  match a with
  | ⟨0, _⟩ => show win0_2.index t (0 : Fin 5) * 1 ≤ (i 0).val ∧ (i 0).val < win0_2.index t (0 : Fin 5) * 1 + 1; omega
  | ⟨1, _⟩ => show win0_2.index t (1 : Fin 5) * 1 ≤ (i 1).val ∧ (i 1).val < win0_2.index t (1 : Fin 5) * 1 + 1; omega
  | ⟨2, _⟩ => show win0_2.index t (2 : Fin 5) * 16 ≤ (i 2).val ∧ (i 2).val < win0_2.index t (2 : Fin 5) * 16 + 16; omega
  | ⟨3, _⟩ => show win0_2.index t (3 : Fin 5) * 256 ≤ (i 3).val ∧ (i 3).val < win0_2.index t (3 : Fin 5) * 256 + 256; omega
  | ⟨4, _⟩ => show win0_2.index t (4 : Fin 5) * 128 ≤ (i 4).val ∧ (i 4).val < win0_2.index t (4 : Fin 5) * 128 + 128; omega

/-- THE ARRAY of output window 2 after the run is `wHigh` of the argument. -/
theorem final_high (c : Dev nD) : (dats m 0 c).arrAt 2 cfg0.N = wHigh (V m c main_arg0) :=
  (dats m 0 c).arrAt_eq_of_cover 2 _ (fun t _ => flushed_high m c t) cover_high

end Cert.Haar.Arr

end
-- ==== Proof.KernelRun.lean ====
/-
  The kernel's run, read: after the region the first two output arrays hold `wLow z` and `wHigh z` (the two
  final-array theorems), and the twelve host operations that follow are the width step on them, so the result
  buffer ends at `widthStep (wLow z) (wHigh z)`; the argument is unchanged.
-/
import proofs.«162395_j66924180407100_1_alg».proof.Proof.KernelArray
import Idealize.ShloMosaic.Lib.StableHlo.Run

set_option maxRecDepth 16384

noncomputable section

namespace Cert.Haar.Arr

open Cert.KernelIdeal Cert.KernelIdeal.Gen Idealize.ShloMosaic Idealize.ShloMosaic.TcCoe Idealize.ShloMosaic.ValueIdx Idealize.SL.Sem Cert.Haar
open Idealize.ShloMosaic.Pipeline (Dat)

variable (m : (ℓ : Loc nD τ sig) → Buf (Elt Ideal) ℓ) (ρ : Dev nD → PrngReg)

/-- What the lines after the region leave in the result buffer. -/
theorem result_eq (c : Dev nD) :
    Pipeline.afterTail₀ cfgs (dats m) 0 (V0 m) [hostOps1] c main_v10
      = widthStep (wLow (m ((c : Thread nD τ).loc main_arg0))) (wHigh (m ((c : Thread nD τ).loc main_arg0))) := by
  unfold Pipeline.afterTail₀
  show StableHlo.after hostOps1 _ (Proc.devRef .tc main_v10) = _
  after_results
  rw [Pipeline.withArrays_arr spec0 launch0.win.arr_inj c _ _ 1, Pipeline.withArrays_arr spec0 launch0.win.arr_inj c _ _ 2,
    final_low, final_high]
  rfl

/-- The frame run re-posted: the result at the width step of the two halves of the argument, the argument kept. -/
theorem run : θ_run defs (onTc (τ := τ) (main (F := Ideal))) ⟨m, fun _ => 0, ρ⟩ fun r => ∀ c : Dev nD,
      r.2.mem ((c : Thread nD τ).loc main_v10) = widthStep (wLow (m ((c : Thread nD τ).loc main_arg0))) (wHigh (m ((c : Thread nD τ).loc main_arg0)))
      ∧ r.2.mem ((c : Thread nD τ).loc main_arg0) = m ((c : Thread nD τ).loc main_arg0) :=
  (θ_run defs _ _).mono (fun r h c =>
      ⟨((h c).2 main_v10 (Pipeline.mem_restRefs_of main_v10 rfl (by decide))).trans (result_eq m c),
       ((h c).1 0).trans (((dats m 0 c).arrAt_in 0 rfl _).trans ((A_eq m c 0).trans (V_main_arg0 m c)))⟩)
    (run_main m ρ)

end Cert.Haar.Arr

end
-- ==== Proof.lean ====
/-
  The inverse Haar transform's kernel against its reference, over the extended reals.

  The input `z` carries eight sub-bands of half extent along depth, height and width. One reconstruction step
  along an axis joins a low and a high band into an array of twice the extent: the even positions hold
  `(lo + hi) * c` and the odd positions `(lo - hi) * c`, with `c` the single-precision word nearest 1/√2, the same
  word wherever either program uses it. The reference takes the step along depth on the band pairs (0,4), (1,5),
  (2,6), (3,7), along height on the results pairwise, and along width on the two halves that leaves. The kernel does
  the depth and height steps inside one pallas_call, block by block over a 4 × 8 grid (batch, eight input depths at
  a time), and the width step afterwards by host operations that are the reference's last ten, word for word.

  So the claim comes down to the two halves: the kernel's two output arrays and the reference's two arrays before
  its width step are the same functions `wLow z`, `wHigh z` of the argument (Proof/Spec.lean). Both sides compute the
  same expression of the same eight entries of `z` at every index — the same sums, differences and products in the
  same order — so no law of arithmetic is used and finiteness of the input is never opened. Proof/Interleave.lean
  reads "stack on a new axis, then flatten" at an index; Proof/Steps.lean turns each program's spelling of a step
  into the specification's; Proof/RefRun.lean reads the reference's run stretch by stretch and Proof/RefValue.lean identifies its two halves,
  Proof/KernelBlock.lean a block of the kernel,
  Proof/KernelArray.lean the tiling of the output arrays by the blocks, Proof/KernelRun.lean the lines after the
  region. The kernel's two frames are the generated ones and the reference's is its run; the idealization rewrote nothing, so `preserves` is `True`.
-/
import proofs.«162395_j66924180407100_1_alg».proof.Defs
import proofs.«162395_j66924180407100_1_alg».proof.Proof.Gen.Kernel
import proofs.«162395_j66924180407100_1_alg».proof.Proof.Gen.Kernel.Skeleton
import proofs.«162395_j66924180407100_1_alg».proof.Proof.Gen.Kernel.Launch
import proofs.«162395_j66924180407100_1_alg».proof.Proof.Gen.Kernel.Points
import proofs.«162395_j66924180407100_1_alg».proof.Proof.Gen.Kernel.Frame
import proofs.«162395_j66924180407100_1_alg».proof.Proof.Gen.KernelIdeal
import proofs.«162395_j66924180407100_1_alg».proof.Proof.Gen.KernelIdeal.Skeleton
import proofs.«162395_j66924180407100_1_alg».proof.Proof.Gen.KernelIdeal.Launch
import proofs.«162395_j66924180407100_1_alg».proof.Proof.Gen.KernelIdeal.Points
import proofs.«162395_j66924180407100_1_alg».proof.Proof.Gen.KernelIdeal.Frame
import proofs.«162395_j66924180407100_1_alg».proof.Proof.Gen.ReferenceIdeal
import proofs.«162395_j66924180407100_1_alg».proof.Proof.Gen.Pre_finite_inputs
import proofs.«162395_j66924180407100_1_alg».proof.Proof.RefValue
import proofs.«162395_j66924180407100_1_alg».proof.Proof.RefRun
import proofs.«162395_j66924180407100_1_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.Haar.RefRun.run (F := Ideal) m ρ)

/-- Both programs end, from memories that agree on `z`, with the result at the width step of `wLow z` and `wHigh z`. -/
theorem algebraic : Cert.algebraic_KernelIdeal_ReferenceIdeal := by
  intro m ρ m' ρ' _ hagree
  refine ⟨_, Cert.Haar.Arr.run m ρ, ?_⟩
  refine (θ_run Cert.ReferenceIdeal.defs _ _).mono (fun _ h c => ⟨(h c).1.trans ?_, (h c).2⟩)
    (Cert.Haar.RefRun.run (F := Ideal) m' ρ')
  rw [Cert.Haar.Ref.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
